-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S16x8 : S_.BroadcastsInDim S16x8 (![] : Fin 0 → Fin S16x8.rank)
  reducesTo_S16x8_S_d0_1 : S16x8.ReducesTo [0, 1] S_
  bcast_S_S32x8 : S_.BroadcastsInDim S32x8 (![] : Fin 0 → Fin S32x8.rank)
  reducesTo_S32x8_S_d0_1 : S32x8.ReducesTo [0, 1] S_
  bcast_S_S64x8 : S_.BroadcastsInDim S64x8 (![] : Fin 0 → Fin S64x8.rank)
  reducesTo_S64x8_S_d0_1 : S64x8.ReducesTo [0, 1] S_
  bcast_S_S128x8 : S_.BroadcastsInDim S128x8 (![] : Fin 0 → Fin S128x8.rank)
  reducesTo_S128x8_S_d0_1 : S128x8.ReducesTo [0, 1] S_
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg4 : FVec F S64x8 .f32) (main_arg5 : FVec F S128x8 .f32) (main_arg6 : FVec F S256x8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S64x8 .f32 := Host.absf main_arg4
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S128x8 .f32 := Host.absf main_arg5
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S256x8 .f32 := Host.absf main_arg6
  let main_cst_10 : FVec F S_ .f32 := constant S_ .f32 0x7F800000#32
  let main_v30 : FVec F S256x8 .f32 := broadcastInDim S256x8 ![] bcast_S_S256x8 main_cst_10
  let main_v31 : IVec S256x8 1 := cmpf .olt main_v29 main_v30
  let main_c_11 : IVec S_ 1 := constantI S_ 1 1#1
  let main_v32 : IVec S_ 1 := (fun x v => Host.reduce IntOp.andi x v reducesTo_S256x8_S_d0_1 h_S_) main_v31 main_c_11
  let main_v33 : IVec S_ 1 := andi main_v28 main_v32
  main_v33

def fn {F : FTy → Type} [FloatOps F] (main_arg0 : FVec F S2000000x1 .f32) (main_arg1 : FVec F S8x8 .f32) (main_arg2 : FVec F S16x8 .f32) (main_arg3 : FVec F S32x8 .f32) (main_arg4 : FVec F S64x8 .f32) (main_arg5 : FVec F S128x8 .f32) (main_arg6 : FVec F S256x8 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S16x8 .f32 := Host.absf main_arg2
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_v13 main_v16
-- ==== Kernel.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S2000000x48 : Shape := ⟨2, ![2000000, 48]⟩
abbrev S20000x1 : Shape := ⟨2, ![20000, 1]⟩
abbrev S20000x48 : Shape := ⟨2, ![20000, 48]⟩
abbrev S20000x256 : Shape := ⟨2, ![20000, 256]⟩
abbrev S20000 : Shape := ⟨1, ![20000]⟩
abbrev S20000x8 : Shape := ⟨2, ![20000, 8]⟩
abbrev S20000x16 : Shape := ⟨2, ![20000, 16]⟩
abbrev S20000x32 : Shape := ⟨2, ![20000, 32]⟩
abbrev S20000x64 : Shape := ⟨2, ![20000, 64]⟩
abbrev S20000x128 : Shape := ⟨2, ![20000, 128]⟩

abbrev nBuf : Space → Nat
  | .hbm => 8
  | .vmem => 11
  | .smem => 0
  | _ => 0

abbrev bufTy : (tb : Table) → Fin (tcTables nBuf tb) → BufTy
  | .hbm, ⟨0, _⟩ => ⟨S2000000x1, .f32⟩
  | .hbm, ⟨1, _⟩ => ⟨S8x8, .f32⟩
  | .hbm, ⟨2, _⟩ => ⟨S16x8, .f32⟩
  | .hbm, ⟨3, _⟩ => ⟨S32x8, .f32⟩
  | .hbm, ⟨4, _⟩ => ⟨S64x8, .f32⟩
  | .hbm, ⟨5, _⟩ => ⟨S128x8, .f32⟩
  | .hbm, ⟨6, _⟩ => ⟨S256x8, .f32⟩
  | .hbm, ⟨7, _⟩ => ⟨S2000000x48, .f32⟩
  | .local _ .vmem, ⟨0, _⟩ => ⟨S20000x1, .f32⟩
  | .local _ .vmem, ⟨1, _⟩ => ⟨S20000x1, .f32⟩
  | .local _ .vmem, ⟨2, _⟩ => ⟨S8x8, .f32⟩
  | .local _ .vmem, ⟨3, _⟩ => ⟨S16x8, .f32⟩
  | .local _ .vmem, ⟨4, _⟩ => ⟨S32x8, .f32⟩
  | .local _ .vmem, ⟨5, _⟩ => ⟨S64x8, .f32⟩
  | .local _ .vmem, ⟨6, _⟩ => ⟨S128x8, .f32⟩
  | .local _ .vmem, ⟨7, _⟩ => ⟨S256x8, .f32⟩
  | .local _ .vmem, ⟨8, _⟩ => ⟨S20000x48, .f32⟩
  | .local _ .vmem, ⟨9, _⟩ => ⟨S20000x48, .f32⟩
  | .local _ .vmem, ⟨10, _⟩ => ⟨S20000x256, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S20000x1_S20000x1_0_0 : ∀ a, (![0, 0] : Fin 2 → Nat) a + S20000x1.size a ≤ S20000x1.size a
  h_S20000x1 : 0 < S20000x1.numel
  shapeCasts_S20000x1_S20000 : S20000x1.ShapeCasts S20000
  iota_S20000x8_d1_w32 : S20000x8.Iotas .tc 32 [1]
  shapeCasts_S20000_S20000x1 : S20000.ShapeCasts S20000x1
  broadcasts_S20000x1_S20000x8 : S20000x1.Broadcasts S20000x8
  shapeCasts_S20000x1_S20000x1 : S20000x1.ShapeCasts S20000x1
  inb_S20000x256_S20000x8_0_0 : ∀ a, (![0, 0] : Fin 2 → Nat) a + S20000x8.size a ≤ S20000x256.size a
  h_S20000x8 : 0 < S20000x8.numel
  shapeCasts_S20000x8_S20000x8 : S20000x8.ShapeCasts S20000x8
  inb_S8x8_S8x8_0_0 : ∀ a, (![0, 0] : Fin 2 → Nat) a + S8x8.size a ≤ S8x8.size a
  h_S8x8 : 0 < S8x8.numel
  iota_S20000x16_d1_w32 : S20000x16.Iotas .tc 32 [1]
  broadcasts_S20000x1_S20000x16 : S20000x1.Broadcasts S20000x16
  inb_S20000x256_S20000x16_0_0 : ∀ a, (![0, 0] : Fin 2 → Nat) a + S20000x16.size a ≤ S20000x256.size a
  h_S20000x16 : 0 < S20000x16.numel
  shapeCasts_S20000x16_S20000x16 : S20000x16.ShapeCasts S20000x16
  inb_S16x8_S16x8_0_0 : ∀ a, (![0, 0] : Fin 2 → Nat) a + S16x8.size a ≤ S16x8.size a
  h_S16x8 : 0 < S16x8.numel
  iota_S20000x32_d1_w32 : S20000x32.Iotas .tc 32 [1]
  broadcasts_S20000x1_S20000x32 : S20000x1.Broadcasts S20000x32
  inb_S20000x256_S20000x32_0_0 : ∀ a, (![0, 0] : Fin 2 → Nat) a + S20000x32.size a ≤ S20000x256.size a
  h_S20000x32 : 0 < S20000x32.numel
  shapeCasts_S20000x32_S20000x32 : S20000x32.ShapeCasts S20000x32
  inb_S32x8_S32x8_0_0 : ∀ a, (![0, 0] : Fin 2 → Nat) a + S32x8.size a ≤ S32x8.size a
  h_S32x8 : 0 < S32x8.numel
  iota_S20000x64_d1_w32 : S20000x64.Iotas .tc 32 [1]
  broadcasts_S20000x1_S20000x64 : S20000x1.Broadcasts S20000x64
  inb_S20000x256_S20000x64_0_0 : ∀ a, (![0, 0] : Fin 2 → Nat) a + S20000x64.size a ≤ S20000x256.size a
  h_S20000x64 : 0 < S20000x64.numel
  shapeCasts_S20000x64_S20000x64 : S20000x64.ShapeCasts S20000x64
  inb_S64x8_S64x8_0_0 : ∀ a, (![0, 0] : Fin 2 → Nat) a + S64x8.size a ≤ S64x8.size a
  h_S64x8 : 0 < S64x8.numel
  iota_S20000x128_d1_w32 : S20000x128.Iotas .tc 32 [1]
  broadcasts_S20000x1_S20000x128 : S20000x1.Broadcasts S20000x128
  inb_S20000x256_S20000x128_0_0 : ∀ a, (![0, 0] : Fin 2 → Nat) a + S20000x128.size a ≤ S20000x256.size a
  h_S20000x128 : 0 < S20000x128.numel
  shapeCasts_S20000x128_S20000x128 : S20000x128.ShapeCasts S20000x128
  inb_S128x8_S128x8_0_0 : ∀ a, (![0, 0] : Fin 2 → Nat) a + S128x8.size a ≤ S128x8.size a
  h_S128x8 : 0 < S128x8.numel
  iota_S20000x256_d1_w32 : S20000x256.Iotas .tc 32 [1]
  broadcasts_S20000x1_S20000x256 : S20000x1.Broadcasts S20000x256
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S256x8_S256x8_0_0 : ∀ a, (![0, 0] : Fin 2 → Nat) a + S256x8.size a ≤ S256x8.size a
  h_S256x8 : 0 < S256x8.numel
  concatenates_S20000x8_S20000x8_S20000x8_S20000x8_S20000x8_S20000x8_S20000x48_d1 : Shape.Concatenates [S20000x8, S20000x8, S20000x8, S20000x8, S20000x8, S20000x8] S20000x48 1
  inb_S20000x48_S20000x48_0_0 : ∀ a, (![0, 0] : Fin 2 → Nat) a + S20000x48.size a ≤ S20000x48.size a
  h_S20000x48 : 0 < S20000x48.numel
  dot_S20000x8_S8x8_S20000x8_1_0_0_1_n_n_wf : DotDims.WF S20000x8 S8x8 S20000x8 [1] [0] [0] [1] [] []
  dot_S20000x16_S16x8_S20000x8_1_0_0_1_n_n_wf : DotDims.WF S20000x16 S16x8 S20000x8 [1] [0] [0] [1] [] []
  dot_S20000x32_S32x8_S20000x8_1_0_0_1_n_n_wf : DotDims.WF S20000x32 S32x8 S20000x8 [1] [0] [0] [1] [] []
  dot_S20000x64_S64x8_S20000x8_1_0_0_1_n_n_wf : DotDims.WF S20000x64 S64x8 S20000x8 [1] [0] [0] [1] [] []
  dot_S20000x128_S128x8_S20000x8_1_0_0_1_n_n_wf : DotDims.WF S20000x128 S128x8 S20000x8 [1] [0] [0] [1] [] []
  dot_S20000x256_S256x8_S20000x8_1_0_0_1_n_n_wf : DotDims.WF S20000x256 S256x8 S20000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S2000000x1.size a
  hwx0_0 : ∀ i : grid0.Coords, EltTy.bits .f32 = 32 ∨ (Rect.block (s := S2000000x1) S20000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S32x8.size a
  hwx0_3 : ∀ i : grid0.Coords, EltTy.bits .f32 = 32 ∨ (Rect.block (s := S32x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8.size a ≤ S128x8.size a
  hwx0_5 : ∀ i : grid0.Coords, EltTy.bits .f32 = 32 ∨ (Rect.block (s := S128x8) S128x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .f32 = 32 ∨ (Rect.block (s := S256x8) S256x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S20000x48.size a ≤ S2000000x48.size a
  hwx0_7 : ∀ i : grid0.Coords, EltTy.bits .f32 = 32 ∨ (Rect.block (s := S2000000x48) S20000x48.size (cc0_transform_7 i) (hinb0_7 i)).WholeWords (EltTy.packing .f32)

variable [Facts₀]

def dot_S20000x8_S8x8_S20000x8_1_0_0_1_n_n : DotDims S20000x8 S8x8 S20000x8 where
  lhsContracting := [1]
  rhsContracting := [0]
  lhsNonContracting := [0]
  rhsNonContracting := [1]
  lhsBatch := []
  rhsBatch := []
  wf := dot_S20000x8_S8x8_S20000x8_1_0_0_1_n_n_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def dot_S20000x32_S32x8_S20000x8_1_0_0_1_n_n : DotDims S20000x32 S32x8 S20000x8 where
  lhsContracting := [1]
  rhsContracting := [0]
  lhsNonContracting := [0]
  rhsNonContracting := [1]
  lhsBatch := []
  rhsBatch := []
  wf := dot_S20000x32_S32x8_S20000x8_1_0_0_1_n_n_wf
def dot_S20000x64_S64x8_S20000x8_1_0_0_1_n_n : DotDims S20000x64 S64x8 S20000x8 where
  lhsContracting := [1]
  rhsContracting := [0]
  lhsNonContracting := [0]
  rhsNonContracting := [1]
  lhsBatch := []
  rhsBatch := []
  wf := dot_S20000x64_S64x8_S20000x8_1_0_0_1_n_n_wf
def dot_S20000x128_S128x8_S20000x8_1_0_0_1_n_n : DotDims S20000x128 S128x8 S20000x8 where
  lhsContracting := [1]
  rhsContracting := [0]
  lhsNonContracting := [0]
  rhsNonContracting := [1]
  lhsBatch := []
  rhsBatch := []
  wf := dot_S20000x128_S128x8_S20000x8_1_0_0_1_n_n_wf
def dot_S20000x256_S256x8_S20000x8_1_0_0_1_n_n : DotDims S20000x256 S256x8 S20000x8 where
  lhsContracting := [1]
  rhsContracting := [0]
  lhsNonContracting := [0]
  rhsNonContracting := [1]
  lhsBatch := []
  rhsBatch := []
  wf := dot_S20000x256_S256x8_S20000x8_1_0_0_1_n_n_wf

abbrev win0_0 : Pipeline.Window sig grid0 :=
  Pipeline.Window.ofSpec (Memref.whole main_arg0) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S20000x48.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S8x8 : Shape := ⟨2, ![8, 8]⟩
abbrev S16x8 : Shape := ⟨2, ![16, 8]⟩
abbrev S32x8 : Shape := ⟨2, ![32, 8]⟩
abbrev S64x8 : Shape := ⟨2, ![64, 8]⟩
abbrev S128x8 : Shape := ⟨2, ![128, 8]⟩
abbrev S256x8 : Shape := ⟨2, ![256, 8]⟩
abbrev S2000000 : Shape := ⟨1, ![2000000]⟩
abbrev S_ : Shape := ⟨0, ![]⟩
abbrev S2000000x8 : Shape := ⟨2, ![2000000, 8]⟩
abbrev S2000000x48 : Shape := ⟨2, ![2000000, 48]⟩

abbrev nBuf : Space → Nat
  | .hbm => 287
  | .vmem => 0
  | .smem => 0
  | _ => 0

abbrev hbmTy0_0 (i : Nat) : BufTy := match i % 128 with
  | 0 => ⟨S2000000x1, .f32⟩
  | 1 => ⟨S8x8, .f32⟩
  | 2 => ⟨S16x8, .f32⟩
  | 3 => ⟨S32x8, .f32⟩
  | 4 => ⟨S64x8, .f32⟩
  | 5 => ⟨S128x8, .f32⟩
  | 6 => ⟨S256x8, .f32⟩
  | 7 => ⟨S2000000, .f32⟩
  | 8 => ⟨S_, .f32⟩
  | 9 => ⟨S_, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S2000000, .i32⟩
  | 21 => ⟨S_, .i32⟩
  | 22 => ⟨S_, .i32⟩
  | 23 => ⟨S_, .i32⟩
  | 24 => ⟨S2000000, .i32⟩
  | 25 => ⟨S2000000, .i32⟩
  | 26 => ⟨S_, .i32⟩
  | 27 => ⟨S2000000, .i32⟩
  | 28 => ⟨S2000000, .i32⟩
  | 29 => ⟨S2000000, .f32⟩
  | 30 => ⟨S2000000, .f32⟩
  | 31 => ⟨S2000000x1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x8, .f32⟩
  | 41 => ⟨S_, .f32⟩
  | 42 => ⟨S2000000x1, .f32⟩
  | 43 => ⟨S2000000x1, .f32⟩
  | 44 => ⟨S2000000x8, .f32⟩
  | 45 => ⟨S2000000x8, .f32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x8, .f32⟩
  | 58 => ⟨S2000000x8, .f32⟩
  | 59 => ⟨S2000000x8, .f32⟩
  | 60 => ⟨S2000000x8, .f32⟩
  | 61 => ⟨S_, .f32⟩
  | 62 => ⟨S2000000, .f32⟩
  | 63 => ⟨S2000000, .f32⟩
  | 64 => ⟨S2000000, .f32⟩
  | 65 => ⟨S2000000, .i32⟩
  | 66 => ⟨S_, .i32⟩
  | 67 => ⟨S_, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S2000000, .f32⟩
  | 75 => ⟨S2000000, .f32⟩
  | 76 => ⟨S2000000x1, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x8, .f32⟩
  | 86 => ⟨S_, .f32⟩
  | 87 => ⟨S2000000x1, .f32⟩
  | 88 => ⟨S2000000x1, .f32⟩
  | 89 => ⟨S2000000x8, .f32⟩
  | 90 => ⟨S2000000x8, .f32⟩
  | 91 => ⟨S_, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x8, .f32⟩
  | 103 => ⟨S2000000x8, .f32⟩
  | 104 => ⟨S2000000x8, .f32⟩
  | 105 => ⟨S2000000x8, .f32⟩
  | 106 => ⟨S_, .f32⟩
  | 107 => ⟨S2000000, .f32⟩
  | 108 => ⟨S2000000, .f32⟩
  | 109 => ⟨S2000000, .f32⟩
  | 110 => ⟨S2000000, .i32⟩
  | 111 => ⟨S_, .i32⟩
  | 112 => ⟨S_, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i32⟩
  | 119 => ⟨S2000000, .f32⟩
  | 120 => ⟨S2000000, .f32⟩
  | 121 => ⟨S2000000x1, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S2000000x1, .f32⟩

abbrev hbmTy0_1 (i : Nat) : BufTy := match i % 128 with
  | 0 => ⟨S2000000, .i32⟩
  | 1 => ⟨S2000000x1, .i32⟩
  | 2 => ⟨S2000000x8, .f32⟩
  | 3 => ⟨S_, .f32⟩
  | 4 => ⟨S2000000x1, .f32⟩
  | 5 => ⟨S2000000x1, .f32⟩
  | 6 => ⟨S2000000x8, .f32⟩
  | 7 => ⟨S2000000x8, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x8, .f32⟩
  | 20 => ⟨S2000000x8, .f32⟩
  | 21 => ⟨S2000000x8, .f32⟩
  | 22 => ⟨S2000000x8, .f32⟩
  | 23 => ⟨S_, .f32⟩
  | 24 => ⟨S2000000, .f32⟩
  | 25 => ⟨S2000000, .f32⟩
  | 26 => ⟨S2000000, .f32⟩
  | 27 => ⟨S2000000, .i32⟩
  | 28 => ⟨S_, .i32⟩
  | 29 => ⟨S_, .i32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S2000000, .f32⟩
  | 37 => ⟨S2000000, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x8, .f32⟩
  | 48 => ⟨S_, .f32⟩
  | 49 => ⟨S2000000x1, .f32⟩
  | 50 => ⟨S2000000x1, .f32⟩
  | 51 => ⟨S2000000x8, .f32⟩
  | 52 => ⟨S2000000x8, .f32⟩
  | 53 => ⟨S_, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x8, .f32⟩
  | 65 => ⟨S2000000x8, .f32⟩
  | 66 => ⟨S2000000x8, .f32⟩
  | 67 => ⟨S2000000x8, .f32⟩
  | 68 => ⟨S_, .f32⟩
  | 69 => ⟨S2000000, .f32⟩
  | 70 => ⟨S2000000, .f32⟩
  | 71 => ⟨S2000000, .f32⟩
  | 72 => ⟨S2000000, .i32⟩
  | 73 => ⟨S_, .i32⟩
  | 74 => ⟨S_, .i32⟩
  | 75 => ⟨S_, .i32⟩
  | 76 => ⟨S2000000, .i32⟩
  | 77 => ⟨S2000000, .i32⟩
  | 78 => ⟨S_, .i32⟩
  | 79 => ⟨S2000000, .i32⟩
  | 80 => ⟨S2000000, .i32⟩
  | 81 => ⟨S2000000, .f32⟩
  | 82 => ⟨S2000000, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x8, .f32⟩
  | 93 => ⟨S_, .f32⟩
  | 94 => ⟨S2000000x1, .f32⟩
  | 95 => ⟨S2000000x1, .f32⟩
  | 96 => ⟨S2000000x8, .f32⟩
  | 97 => ⟨S2000000x8, .f32⟩
  | 98 => ⟨S_, .i32⟩
  | 99 => ⟨S2000000, .i32⟩
  | 100 => ⟨S2000000, .i32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x8, .f32⟩
  | 110 => ⟨S2000000x8, .f32⟩
  | 111 => ⟨S2000000x8, .f32⟩
  | 112 => ⟨S2000000x8, .f32⟩
  | 113 => ⟨S_, .f32⟩
  | 114 => ⟨S2000000, .f32⟩
  | 115 => ⟨S2000000, .f32⟩
  | 116 => ⟨S2000000, .f32⟩
  | 117 => ⟨S2000000, .i32⟩
  | 118 => ⟨S_, .i32⟩
  | 119 => ⟨S_, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i32⟩
  | 126 => ⟨S2000000, .f32⟩
  | 127 => ⟨S2000000, .f32⟩
  | _ => ⟨S2000000x1, .f32⟩

abbrev hbmTy0_2 (i : Nat) : BufTy := match i % 128 with
  | 0 => ⟨S2000000x1, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000x8, .f32⟩
  | 10 => ⟨S_, .f32⟩
  | 11 => ⟨S2000000x1, .f32⟩
  | 12 => ⟨S2000000x1, .f32⟩
  | 13 => ⟨S2000000x8, .f32⟩
  | 14 => ⟨S2000000x8, .f32⟩
  | 15 => ⟨S_, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x8, .f32⟩
  | 27 => ⟨S2000000x8, .f32⟩
  | 28 => ⟨S2000000x8, .f32⟩
  | 29 => ⟨S2000000x8, .f32⟩
  | 30 => ⟨S2000000x48, .f32⟩
  | _ => ⟨S2000000x1, .f32⟩

abbrev hbmTy (i : Nat) : BufTy := match i / 128 with
  | 0 => hbmTy0_0 i
  | 1 => hbmTy0_1 i
  | 2 => hbmTy0_2 i
  | _ => ⟨S2000000x1, .f32⟩

abbrev bufTy : (tb : Table) → Fin (tcTables nBuf tb) → BufTy
  | .hbm, ⟨i, _⟩ => hbmTy i
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_10 : Ref sig .tc := ⟨.hbm, 66, rfl⟩
abbrev main_c_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_c_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_15 : Ref sig .tc := ⟨.hbm, 91, rfl⟩
abbrev main_v52 : Ref sig .tc := ⟨.hbm, 92, rfl⟩
abbrev main_v53 : Ref sig .tc := ⟨.hbm, 93, rfl⟩
abbrev main_c_16 : Ref sig .tc := ⟨.hbm, 94, rfl⟩
abbrev main_v54 : Ref sig .tc := ⟨.hbm, 95, rfl⟩
abbrev main_v55 : Ref sig .tc := ⟨.hbm, 96, rfl⟩
abbrev main_c_17 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_18 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_19 : Ref sig .tc := ⟨.hbm, 111, rfl⟩
abbrev main_c_20 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_21 : Ref sig .tc := ⟨.hbm, 122, rfl⟩
abbrev main_v72 : Ref sig .tc := ⟨.hbm, 123, rfl⟩
abbrev main_v73 : Ref sig .tc := ⟨.hbm, 124, rfl⟩
abbrev main_c_22 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_23 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_24 : Ref sig .tc := ⟨.hbm, 136, rfl⟩
abbrev main_v83 : Ref sig .tc := ⟨.hbm, 137, rfl⟩
abbrev main_v84 : Ref sig .tc := ⟨.hbm, 138, rfl⟩
abbrev main_c_25 : Ref sig .tc := ⟨.hbm, 139, rfl⟩
abbrev main_v85 : Ref sig .tc := ⟨.hbm, 140, rfl⟩
abbrev main_v86 : Ref sig .tc := ⟨.hbm, 141, rfl⟩
abbrev main_c_26 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_27 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_28 : Ref sig .tc := ⟨.hbm, 156, rfl⟩
abbrev main_c_29 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_c_30 : Ref sig .tc := ⟨.hbm, 167, rfl⟩
abbrev main_v103 : Ref sig .tc := ⟨.hbm, 168, rfl⟩
abbrev main_v104 : Ref sig .tc := ⟨.hbm, 169, rfl⟩
abbrev main_c_31 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_32 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_33 : Ref sig .tc := ⟨.hbm, 181, rfl⟩
abbrev main_v114 : Ref sig .tc := ⟨.hbm, 182, rfl⟩
abbrev main_v115 : Ref sig .tc := ⟨.hbm, 183, rfl⟩
abbrev main_c_34 : Ref sig .tc := ⟨.hbm, 184, rfl⟩
abbrev main_v116 : Ref sig .tc := ⟨.hbm, 185, rfl⟩
abbrev main_v117 : Ref sig .tc := ⟨.hbm, 186, rfl⟩
abbrev main_c_35 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_36 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_c_37 : Ref sig .tc := ⟨.hbm, 201, rfl⟩
abbrev main_c_38 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_c_39 : Ref sig .tc := ⟨.hbm, 212, rfl⟩
abbrev main_v134 : Ref sig .tc := ⟨.hbm, 213, rfl⟩
abbrev main_v135 : Ref sig .tc := ⟨.hbm, 214, rfl⟩
abbrev main_c_40 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_41 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_c_42 : Ref sig .tc := ⟨.hbm, 226, rfl⟩
abbrev main_v145 : Ref sig .tc := ⟨.hbm, 227, rfl⟩
abbrev main_v146 : Ref sig .tc := ⟨.hbm, 228, rfl⟩
abbrev main_c_43 : Ref sig .tc := ⟨.hbm, 229, rfl⟩
abbrev main_v147 : Ref sig .tc := ⟨.hbm, 230, rfl⟩
abbrev main_v148 : Ref sig .tc := ⟨.hbm, 231, rfl⟩
abbrev main_c_44 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_45 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_c_46 : Ref sig .tc := ⟨.hbm, 246, rfl⟩
abbrev main_c_47 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_c_48 : Ref sig .tc := ⟨.hbm, 257, rfl⟩
abbrev main_v165 : Ref sig .tc := ⟨.hbm, 258, rfl⟩
abbrev main_v166 : Ref sig .tc := ⟨.hbm, 259, rfl⟩
abbrev main_c_49 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_50 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_c_51 : Ref sig .tc := ⟨.hbm, 271, rfl⟩
abbrev main_v176 : Ref sig .tc := ⟨.hbm, 272, rfl⟩
abbrev main_v177 : Ref sig .tc := ⟨.hbm, 273, rfl⟩
abbrev main_c_52 : Ref sig .tc := ⟨.hbm, 274, rfl⟩
abbrev main_v178 : Ref sig .tc := ⟨.hbm, 275, rfl⟩
abbrev main_v179 : Ref sig .tc := ⟨.hbm, 276, rfl⟩
abbrev main_c_53 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩

abbrev nD : Nat := 1
abbrev τ : Topo := Topo.v7x

variable {F : FTy → Type} [FloatOps F]

class Facts₀ : Prop where
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x8_0_1 : S2000000x1.BroadcastsInDim S2000000x8 (![0, 1] : Fin 2 → Fin S2000000x8.rank)
  concatenates_S2000000x8_S2000000x8_S2000000x8_S2000000x8_S2000000x8_S2000000x8_S2000000x48_d1 : Shape.Concatenates [S2000000x8, S2000000x8, S2000000x8, S2000000x8, S2000000x8, S2000000x8] S2000000x48 1
  gather_S8x8_S2000000x1_S2000000x8_1_0_n_n_0_1_18_wf : GatherDims.WF S8x8 S2000000x1 S2000000x8 [1] [0] [] [0] [] 1 ![1, 8]
  gather_S16x8_S2000000x1_S2000000x8_1_0_n_n_0_1_18_wf : GatherDims.WF S16x8 S2000000x1 S2000000x8 [1] [0] [] [0] [] 1 ![1, 8]
  gather_S32x8_S2000000x1_S2000000x8_1_0_n_n_0_1_18_wf : GatherDims.WF S32x8 S2000000x1 S2000000x8 [1] [0] [] [0] [] 1 ![1, 8]
  gather_S64x8_S2000000x1_S2000000x8_1_0_n_n_0_1_18_wf : GatherDims.WF S64x8 S2000000x1 S2000000x8 [1] [0] [] [0] [] 1 ![1, 8]
  gather_S128x8_S2000000x1_S2000000x8_1_0_n_n_0_1_18_wf : GatherDims.WF S128x8 S2000000x1 S2000000x8 [1] [0] [] [0] [] 1 ![1, 8]
  gather_S256x8_S2000000x1_S2000000x8_1_0_n_n_0_1_18_wf : GatherDims.WF S256x8 S2000000x1 S2000000x8 [1] [0] [] [0] [] 1 ![1, 8]

variable [Facts₀]

def gather_S8x8_S2000000x1_S2000000x8_1_0_n_n_0_1_18 : GatherDims S8x8 S2000000x1 S2000000x8 where
  offsetDims := [1]
  collapsedSliceDims := [0]
  operandBatchingDims := []
  startIndicesBatchingDims := []
  startIndexMap := [0]
  indexVectorDim := 1
  sliceSizes := ![1, 8]
  wf := gather_S8x8_S2000000x1_S2000000x8_1_0_n_n_0_1_18_wf
def gather_S16x8_S2000000x1_S2000000x8_1_0_n_n_0_1_18 : GatherDims S16x8 S2000000x1 S2000000x8 where
  offsetDims := [1]
  collapsedSliceDims := [0]
  operandBatchingDims := []
  startIndicesBatchingDims := []
  startIndexMap := [0]
  indexVectorDim := 1
  sliceSizes := ![1, 8]
  wf := gather_S16x8_S2000000x1_S2000000x8_1_0_n_n_0_1_18_wf
def gather_S32x8_S2000000x1_S2000000x8_1_0_n_n_0_1_18 : GatherDims S32x8 S2000000x1 S2000000x8 where
  offsetDims := [1]
  collapsedSliceDims := [0]
  operandBatchingDims := []
  startIndicesBatchingDims := []
  startIndexMap := [0]
  indexVectorDim := 1
  sliceSizes := ![1, 8]
  wf := gather_S32x8_S2000000x1_S2000000x8_1_0_n_n_0_1_18_wf
def gather_S64x8_S2000000x1_S2000000x8_1_0_n_n_0_1_18 : GatherDims S64x8 S2000000x1 S2000000x8 where
  offsetDims := [1]
  collapsedSliceDims := [0]
  operandBatchingDims := []
  startIndicesBatchingDims := []
  startIndexMap := [0]
  indexVectorDim := 1
  sliceSizes := ![1, 8]
  wf := gather_S64x8_S2000000x1_S2000000x8_1_0_n_n_0_1_18_wf
def gather_S128x8_S2000000x1_S2000000x8_1_0_n_n_0_1_18 : GatherDims S128x8 S2000000x1 S2000000x8 where
  offsetDims := [1]
  collapsedSliceDims := [0]
  operandBatchingDims := []
  startIndicesBatchingDims := []
  startIndexMap := [0]
  indexVectorDim := 1
  sliceSizes := ![1, 8]
  wf := gather_S128x8_S2000000x1_S2000000x8_1_0_n_n_0_1_18_wf
def gather_S256x8_S2000000x1_S2000000x8_1_0_n_n_0_1_18 : GatherDims S256x8 S2000000x1 S2000000x8 where
  offsetDims := [1]
  collapsedSliceDims := [0]
  operandBatchingDims := []
  startIndicesBatchingDims := []
  startIndexMap := [0]
  indexVectorDim := 1
  sliceSizes := ![1, 8]
  wf := gather_S256x8_S2000000x1_S2000000x8_1_0_n_n_0_1_18_wf

class Facts : Prop extends Facts₀ where

variable [Facts]
-- ==== Proof.Pieces.lean ====
/-
  What one grid point leaves in the output block: the body's arithmetic on the point's input blocks. The body writes
  each level's weight matrix into the scratch buffer and reads it back through the same rectangle before the
  product, so every read-back is the matrix just written, whatever the scratch held before; the one store to the
  output block covers it.
-/
import proofs.«128251_j30185030156575_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The body's result block as one term of the coordinate block `x0` and the six tables: per level the weight
    matrix times the table, the six products side by side. -/
def body (x0 : Vec F S20000x1 .f32) (x1 : Vec F S8x8 .f32) (x2 : Vec F S16x8 .f32) (x3 : Vec F S32x8 .f32)
    (x4 : Vec F S64x8 .f32) (x5 : Vec F S128x8 .f32) (x6 : Vec F S256x8 .f32) : Vec F S20000x48 .f32 :=
  k0_pay1 (k0_pay4 (k0_pay3 x0) x1) (k0_pay6 (k0_pay5 (k0_pay2 x0)) x2)
    (k0_pay10 (k0_pay9 (k0_pay7 (k0_pay2 x0)) (k0_pay8 (k0_pay2 x0))) x3)
    (k0_pay19 (k0_pay18 (iota .tc S20000x64 32 [1] Facts₀.iota_S20000x64_d1_w32) (k0_pay14 (k0_pay2 x0)) (k0_pay15 (k0_pay2 x0))
      (k0_pay16 (k0_pay2 x0)) (k0_pay17 (k0_pay2 x0))) x4)
    (k0_pay28 (k0_pay27 (k0_pay24 (k0_pay2 x0)) (k0_pay25 (k0_pay2 x0)) (k0_pay26 (k0_pay2 x0))) x5)
    (k0_pay29 (k0_pay2 x0)) x6

/-- The run's one piece for the output block, read back. -/
theorem out_eq_body (c : Dev nD) (i : grid0.Coords) (arg1 : Memref sig .tc .vmem S20000x1 .f32) (harg1 : arg1.IsWhole) (arg2 : Memref sig .tc .vmem S8x8 .f32) (harg2 : arg2.IsWhole) (arg3 : Memref sig .tc .vmem S16x8 .f32) (harg3 : arg3.IsWhole) (arg4 : Memref sig .tc .vmem S32x8 .f32) (harg4 : arg4.IsWhole) (arg5 : Memref sig .tc .vmem S64x8 .f32) (harg5 : arg5.IsWhole) (arg6 : Memref sig .tc .vmem S128x8 .f32) (harg6 : arg6.IsWhole) (arg7 : Memref sig .tc .vmem S256x8 .f32) (harg7 : arg7.IsWhole) (arg8 : Memref sig .tc .vmem S20000x48 .f32) (harg8 : arg8.IsWhole) (arg9 : Memref sig .tc .vmem S20000x256 .f32) (harg9 : arg9.IsWhole)
    (x0 : Vec F S20000x1 .f32) (x1 : Vec F S8x8 .f32) (x2 : Vec F S16x8 .f32) (x3 : Vec F S32x8 .f32) (x4 : Vec F S64x8 .f32) (x5 : Vec F S128x8 .f32) (x6 : Vec F S256x8 .f32) :
    out0_A_7 c i arg1 harg1 arg2 harg2 arg3 harg3 arg4 harg4 arg5 harg5 arg6 harg6 arg7 harg7 arg8 harg8 arg9 harg9 x0 x1 x2 x3 x4 x5 x6 = body x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz]
  simp only [View.readCov_cons_toLoadRect, View.readAt_eq_ld, harg1.read_unread, harg2.read_unread, harg3.read_unread,
    harg4.read_unread, harg5.read_unread, harg6.read_unread, harg7.read_unread,
    View.ld_unit_zero (S := S20000x1) hz, View.ld_unit_zero (S := S8x8) hz, View.ld_unit_zero (S := S16x8) hz,
    View.ld_unit_zero (S := S32x8) hz, View.ld_unit_zero (S := S64x8) hz, View.ld_unit_zero (S := S128x8) hz,
    View.ld_unit_zero (S := S256x8) hz]
  rfl

end Cert.KernelIdeal.Pieces

end
-- ==== Proof.LibTwoHot.lean ====
/-
  Two-hot weights. A row of interpolation weights that is zero except at two neighbouring positions
  `n` and `n + 1`, where it holds `a` and `b`, contracted against a column `v`, is `a * v n + b * v (n + 1)`
  on the extended reals: every other term is `0 * v k = 0`, whatever `v k` is. The positions are given the way an
  i32 program gives them: as the comparison of the column counter, read as a 32-bit word, with a word `i0` and
  with `i0 + 1`. Beside it: a word clamped between `0` and a non-negative bound lies between them as a signed
  integer, and such a word is left alone by the wrap of a negative index (`i < 0 ? i + S : i`).
-/
import Idealize.ShloMosaic.PureOps.Ideal
import Idealize.ShloMosaic.PureOps.Ideal.Laws
import Idealize.ShloMosaic.Lib.ValueIdx

noncomputable section

namespace Cert.TwoHot

open Idealize.ShloMosaic

/-- A signed 32-bit word that is not negative is its unsigned reading, below `2^31`. -/
theorem toNat_of_nonneg (i : BitVec 32) (h : 0 ≤ i.toInt) : (i.toNat : Int) = i.toInt ∧ i.toNat < 2 ^ 31 := by
  have hlt := i.isLt
  rw [BitVec.toInt_eq_toNat_cond] at h ⊢
  split_ifs at h ⊢ with hc
  · exact ⟨rfl, by omega⟩
  · omega

/-- `min hi (max 0 x)` on signed words lies in `[0, hi]` when `hi` is not negative. -/
theorem clamp_bounds (hi x : BitVec 32) (hhi : 0 ≤ hi.toInt) :
    0 ≤ (IntOp.minsi hi (IntOp.maxsi 0#32 x)).toInt ∧ (IntOp.minsi hi (IntOp.maxsi 0#32 x)).toInt ≤ hi.toInt := by
  unfold IntOp.minsi IntOp.maxsi
  have h0 : (0#32 : BitVec 32).toInt = 0 := by decide
  by_cases hx : x.slt 0#32
  · rw [if_pos hx]
    by_cases hh : hi.slt 0#32
    · rw [if_pos hh]; exact ⟨hhi, le_refl _⟩
    · rw [if_neg hh]
      rw [BitVec.slt_iff_toInt_lt] at hh
      rw [h0]; omega
  · rw [if_neg hx]
    rw [BitVec.slt_iff_toInt_lt, h0] at hx
    by_cases hh : hi.slt x
    · rw [if_pos hh]; exact ⟨hhi, le_refl _⟩
    · rw [if_neg hh]
      rw [BitVec.slt_iff_toInt_lt] at hh
      omega

/-- The wrap of a negative index, `i < 0 ? i + S : i`, leaves a non-negative word alone. -/
theorem wrap_of_nonneg (i s : BitVec 32) (h : 0 ≤ i.toInt) :
    Scalar.select (IntOp.cmpi .slt i 0#32) (IntOp.addi i s) i = i := by
  unfold Scalar.select IntOp.cmpi
  have h0 : (0#32 : BitVec 32).toInt = 0 := by decide
  have : i.slt 0#32 = false := by
    rw [Bool.eq_false_iff]; intro hc; rw [BitVec.slt_iff_toInt_lt, h0] at hc; omega
  simp [this]

/-- The successor of a non-negative word below `2^31 - 1` is its successor as a number. -/
theorem succ_toNat (i : BitVec 32) (h0 : 0 ≤ i.toInt) (h1 : i.toInt + 1 < 2 ^ 31) :
    (IntOp.addi i 1#32).toNat = i.toNat + 1 ∧ 0 ≤ (IntOp.addi i 1#32).toInt := by
  obtain ⟨e, hlt⟩ := toNat_of_nonneg i h0
  have hn : (IntOp.addi i 1#32).toNat = i.toNat + 1 := by
    unfold IntOp.addi
    rw [BitVec.toNat_add]
    show (i.toNat + 1) % 2 ^ 32 = _
    omega
  refine ⟨hn, ?_⟩
  rw [BitVec.toInt_eq_toNat_cond, hn]
  split_ifs with hc
  · omega
  · omega

/-- The column counter `k`, as a 32-bit word, is the word `i` exactly when `k` is `i`'s unsigned reading. -/
theorem ofNat_eq_iff {S : Nat} (hS : S ≤ 2 ^ 31) (k : Fin S) (i : BitVec 32) :
    IntOp.cmpi .eq (BitVec.ofNat 32 k.val) i = 1#1 ↔ k.val = i.toNat := by
  unfold IntOp.cmpi
  have hk : k.val < 2 ^ 32 := by have := k.isLt; omega
  have hb : ∀ b : Bool, BitVec.ofBool b = 1#1 ↔ b = true := by intro b; cases b <;> decide
  rw [hb, beq_iff_eq]
  constructor
  · intro h; rw [← h, BitVec.toNat_ofNat]; omega
  · intro h; apply BitVec.eq_of_toNat_eq; rw [BitVec.toNat_ofNat, h]; have := i.isLt; omega

/-- THE TWO-HOT SUM. -/
theorem twohot_sum {S : Nat} (hS : S ≤ 2 ^ 31) (v : Fin S → EReal) (i0 : BitVec 32) (a b : EReal)
    (h0 : 0 ≤ i0.toInt) (h1 : i0.toNat + 1 < S) :
    ∑ k : Fin S, Scalar.select (IntOp.cmpi .eq (BitVec.ofNat 32 k.val) i0) a
        (Scalar.select (IntOp.cmpi .eq (BitVec.ofNat 32 k.val) (IntOp.addi i0 1#32)) b (Ideal.ofBits .f32 0x00000000#32)) * v k
      = a * v ⟨i0.toNat, by omega⟩ + b * v ⟨i0.toNat + 1, h1⟩ := by
  obtain ⟨e, hlt⟩ := toNat_of_nonneg i0 h0
  obtain ⟨hs, _⟩ := succ_toNat i0 h0 (by omega)
  rw [Fintype.sum_eq_add (⟨i0.toNat, by omega⟩ : Fin S) ⟨i0.toNat + 1, h1⟩ (by intro h; have := congrArg Fin.val h; simp at this)]
  · have e1 : IntOp.cmpi .eq (BitVec.ofNat 32 i0.toNat) i0 = 1#1 := (ofNat_eq_iff hS ⟨i0.toNat, by omega⟩ i0).2 rfl
    have e2 : ¬ IntOp.cmpi .eq (BitVec.ofNat 32 (i0.toNat + 1)) i0 = 1#1 := fun h => by
      have := (ofNat_eq_iff hS ⟨i0.toNat + 1, h1⟩ i0).1 h; simp at this
    have e3 : IntOp.cmpi .eq (BitVec.ofNat 32 (i0.toNat + 1)) (IntOp.addi i0 1#32) = 1#1 :=
      (ofNat_eq_iff hS ⟨i0.toNat + 1, h1⟩ _).2 hs.symm
    rw [e1, ValueIdx.select_one, ValueIdx.eq_zero_of_ne_one e2, ValueIdx.select_zero, e3, ValueIdx.select_one]
  · intro k ⟨hk1, hk2⟩
    have e1 : ¬ IntOp.cmpi .eq (BitVec.ofNat 32 k.val) i0 = 1#1 := fun h =>
      hk1 (Fin.ext ((ofNat_eq_iff hS k i0).1 h))
    have e2 : ¬ IntOp.cmpi .eq (BitVec.ofNat 32 k.val) (IntOp.addi i0 1#32) = 1#1 := fun h =>
      hk2 (Fin.ext (((ofNat_eq_iff hS k _).1 h).trans hs))
    rw [ValueIdx.eq_zero_of_ne_one e1, ValueIdx.select_zero, ValueIdx.eq_zero_of_ne_one e2, ValueIdx.select_zero,
      Ideal.ofBits_zero_f32, zero_mul]

end Cert.TwoHot

end
-- ==== Proof.LibRowGather.lean ====
/-
  A row gather read at an index. `table[idx]` for a table of `N` rows of `C` entries and a column `idx` of `n` row
  numbers is the gather with offset axis 1, collapsed axis 0, start index map [0], the index vector on axis 1 and
  slices `[1, C]`: entry `(p, q)` of the result is the table at row `idx[p, 0]`, read signed and clamped into
  `[0, N - 1]`, and column `q`.
-/
import Idealize.ShloMosaic.Lib.ValueIdx

noncomputable section

namespace Cert.RowGather

open Idealize.ShloMosaic Idealize.ShloMosaic.ValueIdx

/-- Those dimension numbers for a table `[N, C]`, row numbers `[n, 1]` and result `[n, C]`. -/
abbrev rowsDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- A row number read off a word: signed, clamped into a table of `N` rows. -/
def clampRow {w : Nat} (N : Nat) (hN : 0 < N) (i : BitVec w) : Fin N := ⟨min i.toInt.toNat (N - 1), by omega⟩

/-- THE ROW GATHER READ AT `(p, q)`. -/
theorem gather_rows_apply {α : Type} {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowsDims N n C wf) x idx (ix2 p q)
      = x (ix2 (clampRow N hN (idx (ix2 p (0 : Fin 1)))) q) := by
  unfold Host.gather
  congr 1
  funext a
  refine Fin.ext ?_
  show (rowsDims N n C wf).start (ix2 p q) idx a + (rowsDims N n C wf).batchCoord (ix2 p q) a
    + (rowsDims N n C wf).offCoord (ix2 p q) a = _
  rw [GatherDims.batchCoord_eq_zero _ _ _ List.not_mem_nil]
  have ha : a = (0 : Fin 2) ∨ a = (1 : Fin 2) := by
    have h : a.val < 2 := a.isLt
    rcases Nat.lt_or_ge a.val 1 with h0 | h1
    · left; apply Fin.ext; show a.val = 0; omega
    · right; apply Fin.ext; show a.val = 1; omega
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n C wf).startIndexMap from List.mem_singleton.mpr rfl)]
    have hsi : (rowsDims N n C wf).siIdx (ix2 p q) ⟨List.idxOf (0 : Fin 2) (rowsDims N n C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowsDims N n C wf).startIndexMap from fun h =>
      absurd (List.mem_singleton.mp h) (Fin.ne_of_val_ne (show (1 : Nat) ≠ 0 by omega)))]
    simp only [Nat.add_zero, Nat.zero_add]
    rfl

end Cert.RowGather

end
-- ==== Proof.Interp.lean ====
/-
  The specification: multi-resolution linear interpolation of a table along one coordinate.
  For a coordinate `x`, clipped to `t = min 1 (max 0 x)`, and a table of `S` rows: the position `p = t * (S - 1)`, the cell
  `i0 = min (S - 2) (max 0 ⌊p⌋)` as a 32-bit signed word, the fraction `w = p - i0`, and the interpolated entry
  `table[i0, c] * (1 - w) + table[i0 + 1, c] * w`. The float steps are the ideal instance's own operations, so that
  both programs' terms are this one by unfolding; the scale `S - 1` is given by its f32 word `K` and the bound
  `S - 2` by its i32 word `hi`. A row number is read off a word signed and clamped into the table, as a gather
  reads it; for the cell and its successor the clamp does nothing (`row_cell`, `row_succ`).
-/
import Idealize.ShloMosaic.PureOps.Ideal
import Idealize.ShloMosaic.Lib.ValueIdx
import proofs.«128251_j30185030156575_1_alg».proof.Proof.LibTwoHot
import proofs.«128251_j30185030156575_1_alg».proof.Proof.LibRowGather

noncomputable section

namespace Cert.Interp

open Idealize.ShloMosaic Idealize.ShloMosaic.ValueIdx

/-- `min 1 (max 0 x)`. -/
def clip01 (x : EReal) : EReal :=
  FloatOps.minimumf (F := Ideal) (φ := .f32) (FloatOps.ofBits .f32 0x3F800000#32)
    (FloatOps.maximumf (FloatOps.ofBits .f32 0x00000000#32) x)

/-- The position of the clipped coordinate `t` in a table whose last row has number `K` (as an f32 word). -/
def pos (K : BitVec 32) (t : EReal) : EReal :=
  FloatOps.mulf (F := Ideal) (φ := .f32) t (FloatOps.ofBits .f32 K)

/-- The cell: the floor of the position, as a signed word, clamped to `[0, hi]`. -/
def cell (K hi : BitVec 32) (x : EReal) : BitVec 32 :=
  IntOp.minsi hi (IntOp.maxsi 0#32 (FloatOps.fptosi (F := Ideal) (φ := .f32) 32 (FloatOps.floor (F := Ideal) (φ := .f32) (pos K x))))

/-- The fraction of the position inside its cell. -/
def frac (K hi : BitVec 32) (x : EReal) : EReal :=
  FloatOps.subf (F := Ideal) (φ := .f32) (pos K x) (FloatOps.sitofp .f32 (cell K hi x))

/-- A row number read off a word: signed, clamped into the table. -/
abbrev row (S : Nat) (hS : 0 < S) (i : BitVec 32) : Fin S := Cert.RowGather.clampRow S hS i

/-- The interpolated entry of column `c`. -/
def lerp (S : Nat) (hS : 0 < S) (K hi : BitVec 32) (T : (⟨2, ![S, 8]⟩ : Shape).Idx → EReal) (x : EReal) (c : Fin 8) : EReal :=
  FloatOps.addf (F := Ideal) (φ := .f32)
    (FloatOps.mulf (F := Ideal) (φ := .f32) (T (ix2 (row S hS (cell K hi x)) c))
      (FloatOps.subf (F := Ideal) (φ := .f32) (FloatOps.ofBits .f32 0x3F800000#32) (frac K hi x)))
    (FloatOps.mulf (F := Ideal) (φ := .f32) (T (ix2 (row S hS (IntOp.addi (cell K hi x) 1#32)) c)) (frac K hi x))

/-- The cell lies in `[0, hi]`. -/
theorem cell_bounds (K hi : BitVec 32) (x : EReal) (hhi : 0 ≤ hi.toInt) :
    0 ≤ (cell K hi x).toInt ∧ (cell K hi x).toInt ≤ hi.toInt :=
  Cert.TwoHot.clamp_bounds hi _ hhi

/-- With `hi = S - 2`: the cell's unsigned reading and its successor are rows of the table. -/
theorem cell_lt (S : Nat) (K hi : BitVec 32) (x : EReal) (hhi : hi.toInt = (S : Int) - 2) (hS : 2 ≤ S) :
    (cell K hi x).toNat + 1 < S := by
  obtain ⟨h0, h1⟩ := cell_bounds K hi x (by omega)
  obtain ⟨e, _⟩ := Cert.TwoHot.toNat_of_nonneg _ h0
  omega

/-- The clamp does nothing to the cell … -/
theorem row_cell (S : Nat) (hS0 : 0 < S) (K hi : BitVec 32) (x : EReal) (hhi : hi.toInt = (S : Int) - 2) (hS : 2 ≤ S) :
    row S hS0 (cell K hi x) = ⟨(cell K hi x).toNat, by have := cell_lt S K hi x hhi hS; omega⟩ := by
  obtain ⟨h0, h1⟩ := cell_bounds K hi x (by omega)
  obtain ⟨e, _⟩ := Cert.TwoHot.toNat_of_nonneg _ h0
  apply Fin.ext
  show min (cell K hi x).toInt.toNat (S - 1) = (cell K hi x).toNat
  omega

/-- … nor to its successor. -/
theorem row_succ (S : Nat) (hS0 : 0 < S) (K hi : BitVec 32) (x : EReal) (hhi : hi.toInt = (S : Int) - 2) (hS : 2 ≤ S)
    (hS31 : S ≤ 2 ^ 31) :
    row S hS0 (IntOp.addi (cell K hi x) 1#32) = ⟨(cell K hi x).toNat + 1, cell_lt S K hi x hhi hS⟩ := by
  obtain ⟨h0, h1⟩ := cell_bounds K hi x (by omega)
  obtain ⟨e, _⟩ := Cert.TwoHot.toNat_of_nonneg _ h0
  obtain ⟨hs, hs0⟩ := Cert.TwoHot.succ_toNat (cell K hi x) h0 (by omega)
  obtain ⟨e', _⟩ := Cert.TwoHot.toNat_of_nonneg _ hs0
  apply Fin.ext
  show min (IntOp.addi (cell K hi x) 1#32).toInt.toNat (S - 1) = (cell K hi x).toNat + 1
  omega

end Cert.Interp

end
-- ==== Proof.LibWeights.lean ====
/-
  The interpolation weights as a matrix product. For `M` rows and a table of `S` rows, the weight matrix
  `W[r, k] = (k = i0[r]) ? 1 - w[r] : (k = i0[r] + 1) ? w[r] : 0`, built from a column counter, the row's cell
  number `i0[r]` and its fraction `w[r]` the way a vector program builds it (reshapes to a column, broadcasts along
  the row), times a table `[S, N]`, is row by row the two-term sum `(1 - w) * table[i0] + w * table[i0 + 1]`.
-/
import Idealize.ShloMosaic.Lib.Pipeline.Value
import Idealize.ShloMosaic.Lib.ValueIdx
import Idealize.ShloMosaic.PureOps.Ideal.Laws
import proofs.«128251_j30185030156575_1_alg».proof.Proof.LibTwoHot

noncomputable section

namespace Cert.Weights

open Idealize.ShloMosaic Idealize.ShloMosaic.ValueIdx

/-- The plain product of an `M×K` by a `K×N` matrix into a zero accumulator, read at `(a, b)`: the sum over the
    contracted coordinate of the products of the entries. -/
theorem matmul_plain_zero_apply {M K N : Nat} (A : FVec Ideal ⟨2, ![M, K]⟩ .f32) (B : FVec Ideal ⟨2, ![K, N]⟩ .f32)
    (a : Fin M) (b : Fin N) :
    matmul (DotDims.plain M K N) none A B (constant ⟨2, ![M, N]⟩ .f32 0x00000000#32) (ix2 a b)
      = ∑ c : Fin K, A (ix2 a c) * B (ix2 c b) := by
  show FloatOps.matmul _ none A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

section Entry
variable {M S : Nat}

/-- A vector `[M]` reshaped to a column `[M, 1]` reads its entry `r` at `(r, 0)`. -/
theorem column_apply {α : Type} (x : (⟨1, ![M]⟩ : Shape).Idx → α) (h : (⟨1, ![M]⟩ : Shape).ShapeCasts ⟨2, ![M, 1]⟩)
    (j : (⟨2, ![M, 1]⟩ : Shape).Idx) : shapeCast ⟨2, ![M, 1]⟩ x h j = x (ix1 (j 0)) := by
  refine shapeCast_apply x h j (ix1 (j 0)) ?_
  rw [Shape.rowMajor_val_two, Shape.rowMajor_val_one]
  have h1 : (j 1).val < 1 := (j 1).isLt
  show (j 0).val = (j 0).val * 1 + (j 1).val
  omega

/-- A column `[M, 1]` broadcast along the rows of `[M, S]` reads its entry `(r, 0)` at `(r, k)`. -/
theorem along_row_apply {α : Type} (hS : 1 < S) (x : (⟨2, ![M, 1]⟩ : Shape).Idx → α)
    (h : (⟨2, ![M, 1]⟩ : Shape).Broadcasts ⟨2, ![M, S]⟩) (r : Fin M) (k : Fin S) :
    broadcastTo ⟨2, ![M, S]⟩ x h (ix2 r k) = x (ix2 r (0 : Fin 1)) := by
  refine broadcastTo_apply x h (ix2 r k) (ix2 r (0 : Fin 1)) fun a => ?_
  match a with
  | ⟨0, _⟩ =>
    by_cases hM : M = 1
    · subst hM
      show (r : Nat) = if (1 : Nat) = 1 then 0 else _
      rw [if_pos rfl]; have := r.isLt; omega
    · show (r : Nat) = if M = 1 then 0 else (r : Nat)
      rw [if_neg hM]
  | ⟨1, _⟩ =>
    show (0 : Nat) = if (1 : Nat) = 1 then 0 else _
    rw [if_pos rfl]

/-- THE WEIGHT ENTRY: entry `(r, k)` of the weight matrix as the program builds it is the nested choice on the
    column counter `k` against the row's cell number and its successor. -/
theorem weight_entry (hS : 1 < S)
    (hio : (⟨2, ![M, S]⟩ : Shape).Iotas .tc 32 [1])
    (hc : (⟨1, ![M]⟩ : Shape).ShapeCasts ⟨2, ![M, 1]⟩)
    (hc1 : (⟨2, ![M, 1]⟩ : Shape).ShapeCasts ⟨2, ![M, 1]⟩)
    (hb : (⟨2, ![M, 1]⟩ : Shape).Broadcasts ⟨2, ![M, S]⟩)
    (hcs : (⟨2, ![M, S]⟩ : Shape).ShapeCasts ⟨2, ![M, S]⟩)
    (i0 : IVec ⟨1, ![M]⟩ 32) (a b : FVec Ideal ⟨1, ![M]⟩ .f32) (z : EReal) (r : Fin M) (k : Fin S) :
    shapeCast ⟨2, ![M, S]⟩
        (select (cmpi .eq (iota .tc ⟨2, ![M, S]⟩ 32 [1] hio) (broadcastTo ⟨2, ![M, S]⟩ (shapeCast ⟨2, ![M, 1]⟩ i0 hc) hb))
          (broadcastTo ⟨2, ![M, S]⟩ (shapeCast ⟨2, ![M, 1]⟩ (shapeCast ⟨2, ![M, 1]⟩ a hc) hc1) hb)
          (select (cmpi .eq (iota .tc ⟨2, ![M, S]⟩ 32 [1] hio)
              (broadcastTo ⟨2, ![M, S]⟩ (addi (shapeCast ⟨2, ![M, 1]⟩ i0 hc) (broadcast ⟨2, ![M, 1]⟩ 1#32)) hb))
            (broadcastTo ⟨2, ![M, S]⟩ (shapeCast ⟨2, ![M, 1]⟩ (shapeCast ⟨2, ![M, 1]⟩ b hc) hc1) hb)
            (broadcast ⟨2, ![M, S]⟩ z))) hcs (ix2 r k)
      = Scalar.select (IntOp.cmpi .eq (BitVec.ofNat 32 k.val) (i0 (ix1 r))) (a (ix1 r))
          (Scalar.select (IntOp.cmpi .eq (BitVec.ofNat 32 k.val) (IntOp.addi (i0 (ix1 r)) 1#32)) (b (ix1 r)) z) := by
  rw [shapeCast_self]
  show Scalar.select (IntOp.cmpi .eq (iota .tc ⟨2, ![M, S]⟩ 32 [1] hio (ix2 r k)) (broadcastTo ⟨2, ![M, S]⟩ (shapeCast ⟨2, ![M, 1]⟩ i0 hc) hb (ix2 r k)))
      (broadcastTo ⟨2, ![M, S]⟩ (shapeCast ⟨2, ![M, 1]⟩ (shapeCast ⟨2, ![M, 1]⟩ a hc) hc1) hb (ix2 r k))
      (Scalar.select (IntOp.cmpi .eq (iota .tc ⟨2, ![M, S]⟩ 32 [1] hio (ix2 r k))
          (broadcastTo ⟨2, ![M, S]⟩ (addi (shapeCast ⟨2, ![M, 1]⟩ i0 hc) (broadcast ⟨2, ![M, 1]⟩ 1#32)) hb (ix2 r k)))
        (broadcastTo ⟨2, ![M, S]⟩ (shapeCast ⟨2, ![M, 1]⟩ (shapeCast ⟨2, ![M, 1]⟩ b hc) hc1) hb (ix2 r k)) z) = _
  rw [iota_single_apply, along_row_apply hS, along_row_apply hS, along_row_apply hS, along_row_apply hS,
    shapeCast_self, shapeCast_self, column_apply, column_apply, column_apply]
  show Scalar.select _ _ (Scalar.select (IntOp.cmpi .eq _
    (IntOp.addi (shapeCast ⟨2, ![M, 1]⟩ i0 hc (ix2 r (0 : Fin 1))) 1#32)) _ z) = _
  rw [column_apply]
  rfl

end Entry

/-- THE CONTRACTION. A weight matrix whose row `r` is two-hot at the cell number `i0` (in range: `0 ≤ i0` and
    `i0 + 1 < S`) with weights `a`, `b`, times a table, is at `(r, c)` the two-term sum. -/
theorem twohot_matmul {M S N : Nat} (hS : S ≤ 2 ^ 31) (W : FVec Ideal ⟨2, ![M, S]⟩ .f32) (T : FVec Ideal ⟨2, ![S, N]⟩ .f32)
    (r : Fin M) (c : Fin N) (i0 : BitVec 32) (a b : EReal)
    (hW : ∀ k : Fin S, W (ix2 r k) = Scalar.select (IntOp.cmpi .eq (BitVec.ofNat 32 k.val) i0) a
      (Scalar.select (IntOp.cmpi .eq (BitVec.ofNat 32 k.val) (IntOp.addi i0 1#32)) b (Ideal.ofBits .f32 0x00000000#32)))
    (h0 : 0 ≤ i0.toInt) (h1 : i0.toNat + 1 < S) :
    matmul (DotDims.plain M S N) none W T (constant ⟨2, ![M, N]⟩ .f32 0x00000000#32) (ix2 r c)
      = a * T (ix2 ⟨i0.toNat, by omega⟩ c) + b * T (ix2 ⟨i0.toNat + 1, h1⟩ c) := by
  rw [matmul_plain_zero_apply]
  simp only [hW]
  exact Cert.TwoHot.twohot_sum hS (fun k => T (ix2 k c)) i0 a b h0 h1

end Cert.Weights

end
-- ==== Proof.LibLevel.lean ====
/-
  One level of the interpolation, as the two programs compute it on vectors, is the specification's `lerp` row by row.
  Kernel side: the weight matrix of the clipped coordinates `tc` (cell numbers and fractions computed on the whole
  vector) times the table. Reference side: the two gathered rows, each index passed through the wrap of a negative
  index first, mixed with `1 - w` and `w`. Both are stated over an abstract row count `M` and table size `S`, with
  the shape relations as hypotheses, so that each level of a program is an instance.
-/
import Idealize.ShloMosaic.Lib.Pipeline.Value
import Idealize.ShloMosaic.Lib.ValueIdx
import Idealize.ShloMosaic.PureOps.Ideal.Laws
import proofs.«128251_j30185030156575_1_alg».proof.Proof.LibTwoHot
import proofs.«128251_j30185030156575_1_alg».proof.Proof.LibWeights
import proofs.«128251_j30185030156575_1_alg».proof.Proof.LibRowGather
import proofs.«128251_j30185030156575_1_alg».proof.Proof.Interp

noncomputable section

namespace Cert.Level

open Idealize.ShloMosaic Idealize.ShloMosaic.ValueIdx Cert.Interp

variable {M S : Nat}

/-! ## The kernel's side -/

/-- The cell numbers of a vector of clipped coordinates. -/
def cellV (K hi : BitVec 32) (tc : FVec Ideal ⟨1, ![M]⟩ .f32) : IVec ⟨1, ![M]⟩ 32 :=
  minsi (broadcast ⟨1, ![M]⟩ hi) (maxsi (broadcast ⟨1, ![M]⟩ 0#32)
    (fptosi 32 (floor (mulf tc (broadcast ⟨1, ![M]⟩ (Scalar.ofBits .f32 K))))))

/-- Their fractions. -/
def fracV (K hi : BitVec 32) (tc : FVec Ideal ⟨1, ![M]⟩ .f32) : FVec Ideal ⟨1, ![M]⟩ .f32 :=
  subf (mulf tc (broadcast ⟨1, ![M]⟩ (Scalar.ofBits .f32 K))) (sitofp .f32 (cellV K hi tc))

theorem cellV_apply (K hi : BitVec 32) (tc : FVec Ideal ⟨1, ![M]⟩ .f32) (r : Fin M) :
    cellV K hi tc (ix1 r) = cell K hi (tc (ix1 r)) := rfl

theorem fracV_apply (K hi : BitVec 32) (tc : FVec Ideal ⟨1, ![M]⟩ .f32) (r : Fin M) :
    fracV K hi tc (ix1 r) = frac K hi (tc (ix1 r)) := rfl

/-- The weight matrix as the vector program builds it. -/
def weights (K hi : BitVec 32)
    (hio : (⟨2, ![M, S]⟩ : Shape).Iotas .tc 32 [1])
    (hc : (⟨1, ![M]⟩ : Shape).ShapeCasts ⟨2, ![M, 1]⟩)
    (hc1 : (⟨2, ![M, 1]⟩ : Shape).ShapeCasts ⟨2, ![M, 1]⟩)
    (hb : (⟨2, ![M, 1]⟩ : Shape).Broadcasts ⟨2, ![M, S]⟩)
    (hcs : (⟨2, ![M, S]⟩ : Shape).ShapeCasts ⟨2, ![M, S]⟩)
    (tc : FVec Ideal ⟨1, ![M]⟩ .f32) : FVec Ideal ⟨2, ![M, S]⟩ .f32 :=
  shapeCast ⟨2, ![M, S]⟩
    (select (cmpi .eq (iota .tc ⟨2, ![M, S]⟩ 32 [1] hio) (broadcastTo ⟨2, ![M, S]⟩ (shapeCast ⟨2, ![M, 1]⟩ (cellV K hi tc) hc) hb))
      (broadcastTo ⟨2, ![M, S]⟩ (shapeCast ⟨2, ![M, 1]⟩ (shapeCast ⟨2, ![M, 1]⟩
        (subf (broadcast ⟨1, ![M]⟩ (Scalar.ofBits .f32 0x3F800000#32)) (fracV K hi tc)) hc) hc1) hb)
      (select (cmpi .eq (iota .tc ⟨2, ![M, S]⟩ 32 [1] hio)
          (broadcastTo ⟨2, ![M, S]⟩ (addi (shapeCast ⟨2, ![M, 1]⟩ (cellV K hi tc) hc) (broadcast ⟨2, ![M, 1]⟩ 1#32)) hb))
        (broadcastTo ⟨2, ![M, S]⟩ (shapeCast ⟨2, ![M, 1]⟩ (shapeCast ⟨2, ![M, 1]⟩ (fracV K hi tc) hc) hc1) hb)
        (broadcast ⟨2, ![M, S]⟩ (Scalar.ofBits (F := Ideal) .f32 0x00000000#32)))) hcs

/-- THE KERNEL'S LEVEL: the weight matrix times the table, at `(r, c)`, is the interpolated entry of row `r`'s
    coordinate. The two products commute into the specification's order. -/
theorem level_matmul (hS2 : 2 ≤ S) (hS31 : S ≤ 2 ^ 31) (K hi : BitVec 32) (hhi : hi.toInt = (S : Int) - 2)
    (hio : (⟨2, ![M, S]⟩ : Shape).Iotas .tc 32 [1])
    (hc : (⟨1, ![M]⟩ : Shape).ShapeCasts ⟨2, ![M, 1]⟩)
    (hc1 : (⟨2, ![M, 1]⟩ : Shape).ShapeCasts ⟨2, ![M, 1]⟩)
    (hb : (⟨2, ![M, 1]⟩ : Shape).Broadcasts ⟨2, ![M, S]⟩)
    (hcs : (⟨2, ![M, S]⟩ : Shape).ShapeCasts ⟨2, ![M, S]⟩)
    (tc : FVec Ideal ⟨1, ![M]⟩ .f32) (T : FVec Ideal ⟨2, ![S, 8]⟩ .f32) (r : Fin M) (c : Fin 8) :
    matmul (DotDims.plain M S 8) none (weights K hi hio hc hc1 hb hcs tc) T (constant ⟨2, ![M, 8]⟩ .f32 0x00000000#32) (ix2 r c)
      = lerp S (by omega) K hi T (tc (ix1 r)) c := by
  have hlt := cell_lt S K hi (tc (ix1 r)) hhi hS2
  have hb0 := (cell_bounds K hi (tc (ix1 r)) (by omega)).1
  rw [Cert.Weights.twohot_matmul hS31 (weights K hi hio hc hc1 hb hcs tc) T r c (cell K hi (tc (ix1 r)))
    (FloatOps.subf (F := Ideal) (φ := .f32) (FloatOps.ofBits .f32 0x3F800000#32) (frac K hi (tc (ix1 r)))) (frac K hi (tc (ix1 r)))
    (fun k => by
      unfold weights
      rw [Cert.Weights.weight_entry (by omega) hio hc hc1 hb hcs]
      rfl) hb0 hlt]
  unfold lerp
  rw [row_cell S (by omega) K hi _ hhi hS2, row_succ S (by omega) K hi _ hhi hS2 hS31]
  show _ = (_ * _ + _ * _ : EReal)
  rw [mul_comm, mul_comm (frac K hi (tc (ix1 r)))]

/-! ## The reference's side -/

/-- THE REFERENCE'S LEVEL: with `idx0`, `idx1` the columns of row numbers (the cell and its successor, each after the
    wrap of a negative index), the two gathered rows mixed with `1 - w` and `w` are, at `(p, c)`, the interpolated entry. -/
theorem level_gather (hS2 : 2 ≤ S) (hS31 : S ≤ 2 ^ 31) (K hi sw : BitVec 32) (hhi : hi.toInt = (S : Int) - 2)
    (wf : GatherDims.WF ⟨2, ![S, 8]⟩ ⟨2, ![M, 1]⟩ ⟨2, ![M, 8]⟩ [1] [0] [] [0] [] 1 ![1, 8])
    (T : FVec Ideal ⟨2, ![S, 8]⟩ .f32) (idx0 idx1 : IVec ⟨2, ![M, 1]⟩ 32) (a b : FVec Ideal ⟨2, ![M, 8]⟩ .f32)
    (p : Fin M) (c : Fin 8) (t : EReal)
    (h0 : idx0 (ix2 p (0 : Fin 1)) = Scalar.select (IntOp.cmpi .slt (cell K hi t) 0#32) (IntOp.addi (cell K hi t) sw) (cell K hi t))
    (h1 : idx1 (ix2 p (0 : Fin 1)) = Scalar.select (IntOp.cmpi .slt (IntOp.addi (cell K hi t) 1#32) 0#32)
      (IntOp.addi (IntOp.addi (cell K hi t) 1#32) sw) (IntOp.addi (cell K hi t) 1#32))
    (ha : a (ix2 p c) = FloatOps.subf (F := Ideal) (φ := .f32) (FloatOps.ofBits .f32 0x3F800000#32) (frac K hi t))
    (hb : b (ix2 p c) = frac K hi t) :
    addf (mulf (Host.gather (Cert.RowGather.rowsDims S M 8 wf) T idx0) a) (mulf (Host.gather (Cert.RowGather.rowsDims S M 8 wf) T idx1) b) (ix2 p c)
      = lerp S (by omega) K hi T t c := by
  have hb0 := cell_bounds K hi t (by omega)
  have hs := Cert.TwoHot.succ_toNat (cell K hi t) hb0.1 (by omega)
  show FloatOps.addf (FloatOps.mulf (Host.gather _ T idx0 (ix2 p c)) (a (ix2 p c))) (FloatOps.mulf (Host.gather _ T idx1 (ix2 p c)) (b (ix2 p c))) = _
  rw [Cert.RowGather.gather_rows_apply (show 0 < S by omega), Cert.RowGather.gather_rows_apply (show 0 < S by omega), h0, h1, ha, hb,
    Cert.TwoHot.wrap_of_nonneg _ _ hb0.1, Cert.TwoHot.wrap_of_nonneg _ _ hs.2]
  rfl

/-! ## The reference's level as one vector term -/

section RefTerm

/-- A vector `[M]` kept as a column `[M, 1]` reads entry `p` at `(p, 0)`. -/
theorem col_of_vec {α : Type} (hb1 : (⟨1, ![M]⟩ : Shape).BroadcastsInDim ⟨2, ![M, 1]⟩ (![0] : Fin 1 → Fin 2))
    (x : (⟨1, ![M]⟩ : Shape).Idx → α) (p : Fin M) :
    broadcastInDim ⟨2, ![M, 1]⟩ ![0] hb1 x (ix2 p (0 : Fin 1)) = x (ix1 p) := by
  refine broadcastInDim_apply _ hb1 x (ix2 p (0 : Fin 1)) (ix1 p) fun a => ?_
  match a with
  | ⟨0, _⟩ =>
    by_cases hM : M = 1
    · subst hM
      show (p : Nat) = if (1 : Nat) = 1 then 0 else _
      rw [if_pos rfl]; have := p.isLt; omega
    · show (p : Nat) = if M = 1 then 0 else (p : Nat)
      rw [if_neg hM]

/-- A column `[M, 1]` spread over the eight columns of `[M, 8]` reads entry `(p, 0)` at `(p, c)`. -/
theorem row_of_col {α : Type} (hb2 : (⟨2, ![M, 1]⟩ : Shape).BroadcastsInDim ⟨2, ![M, 8]⟩ (![0, 1] : Fin 2 → Fin 2))
    (x : (⟨2, ![M, 1]⟩ : Shape).Idx → α) (p : Fin M) (c : Fin 8) :
    broadcastInDim ⟨2, ![M, 8]⟩ ![0, 1] hb2 x (ix2 p c) = x (ix2 p (0 : Fin 1)) := by
  refine broadcastInDim_apply _ hb2 x (ix2 p c) (ix2 p (0 : Fin 1)) fun a => ?_
  match a with
  | ⟨0, _⟩ =>
    by_cases hM : M = 1
    · subst hM
      show (p : Nat) = if (1 : Nat) = 1 then 0 else _
      rw [if_pos rfl]; have := p.isLt; omega
    · show (p : Nat) = if M = 1 then 0 else (p : Nat)
      rw [if_neg hM]
  | ⟨1, _⟩ =>
    show (0 : Nat) = if (1 : Nat) = 1 then 0 else _
    rw [if_pos rfl]

variable (K hi sw : BitVec 32)
  (wf : GatherDims.WF ⟨2, ![S, 8]⟩ ⟨2, ![M, 1]⟩ ⟨2, ![M, 8]⟩ [1] [0] [] [0] [] 1 ![1, 8])
  (hb0 : (⟨0, ![]⟩ : Shape).BroadcastsInDim ⟨1, ![M]⟩ (![] : Fin 0 → Fin 1))
  (hb1 : (⟨1, ![M]⟩ : Shape).BroadcastsInDim ⟨2, ![M, 1]⟩ (![0] : Fin 1 → Fin 2))
  (hb2 : (⟨2, ![M, 1]⟩ : Shape).BroadcastsInDim ⟨2, ![M, 8]⟩ (![0, 1] : Fin 2 → Fin 2))
  (hb3 : (⟨0, ![]⟩ : Shape).BroadcastsInDim ⟨2, ![M, 1]⟩ (![] : Fin 0 → Fin 2))

/-- The cell numbers as the host program computes them. -/
def refCell (tc : FVec Ideal ⟨1, ![M]⟩ .f32) : IVec ⟨1, ![M]⟩ 32 :=
  minsi (broadcastInDim ⟨1, ![M]⟩ ![] hb0 (constantI ⟨0, ![]⟩ 32 hi))
    (maxsi (broadcastInDim ⟨1, ![M]⟩ ![] hb0 (constantI ⟨0, ![]⟩ 32 0#32))
      (fptosi 32 (Host.floor (mulf tc (broadcastInDim ⟨1, ![M]⟩ ![] hb0 (constant ⟨0, ![]⟩ .f32 K))))))

/-- The fractions, kept as a column. -/
def refFrac (tc : FVec Ideal ⟨1, ![M]⟩ .f32) : FVec Ideal ⟨2, ![M, 1]⟩ .f32 :=
  broadcastInDim ⟨2, ![M, 1]⟩ ![0] hb1
    (subf (mulf tc (broadcastInDim ⟨1, ![M]⟩ ![] hb0 (constant ⟨0, ![]⟩ .f32 K))) (sitofp .f32 (refCell K hi hb0 tc)))

/-- The wrap of a negative row number, then the column of row numbers. -/
def refIdx (i : IVec ⟨1, ![M]⟩ 32) : IVec ⟨2, ![M, 1]⟩ 32 :=
  broadcastInDim ⟨2, ![M, 1]⟩ ![0] hb1
    (select (cmpi .slt i (broadcastInDim ⟨1, ![M]⟩ ![] hb0 (constantI ⟨0, ![]⟩ 32 0#32)))
      (addi i (broadcastInDim ⟨1, ![M]⟩ ![] hb0 (constantI ⟨0, ![]⟩ 32 sw))) i)

/-- One level of the host program: gather the cell's row and the next, mix with `1 - w` and `w`. -/
def refLevel (tc : FVec Ideal ⟨1, ![M]⟩ .f32) (T : FVec Ideal ⟨2, ![S, 8]⟩ .f32) : FVec Ideal ⟨2, ![M, 8]⟩ .f32 :=
  addf
    (mulf (Host.gather (Cert.RowGather.rowsDims S M 8 wf) T (refIdx sw hb0 hb1 (refCell K hi hb0 tc)))
      (broadcastInDim ⟨2, ![M, 8]⟩ ![0, 1] hb2
        (subf (broadcastInDim ⟨2, ![M, 1]⟩ ![] hb3 (constant ⟨0, ![]⟩ .f32 0x3F800000#32)) (refFrac K hi hb0 hb1 tc))))
    (mulf (Host.gather (Cert.RowGather.rowsDims S M 8 wf) T
        (refIdx sw hb0 hb1 (addi (refCell K hi hb0 tc) (broadcastInDim ⟨1, ![M]⟩ ![] hb0 (constantI ⟨0, ![]⟩ 32 1#32)))))
      (broadcastInDim ⟨2, ![M, 8]⟩ ![0, 1] hb2 (refFrac K hi hb0 hb1 tc)))

/-- THE REFERENCE'S LEVEL, read at `(p, c)`: the interpolated entry of row `p`'s clipped coordinate. -/
theorem refLevel_apply (hS2 : 2 ≤ S) (hS31 : S ≤ 2 ^ 31) (hhi : hi.toInt = (S : Int) - 2)
    (tc : FVec Ideal ⟨1, ![M]⟩ .f32) (T : FVec Ideal ⟨2, ![S, 8]⟩ .f32) (p : Fin M) (c : Fin 8) :
    refLevel K hi sw wf hb0 hb1 hb2 hb3 tc T (ix2 p c) = lerp S (by omega) K hi T (tc (ix1 p)) c := by
  unfold refLevel
  refine level_gather hS2 hS31 K hi sw hhi wf T _ _ _ _ p c (tc (ix1 p)) ?_ ?_ ?_ ?_
  · unfold refIdx; rw [col_of_vec]; rfl
  · unfold refIdx; rw [col_of_vec]; rfl
  · rw [row_of_col]
    show FloatOps.subf _ (refFrac K hi hb0 hb1 tc (ix2 p (0 : Fin 1))) = _
    unfold refFrac; rw [col_of_vec]; rfl
  · rw [row_of_col]; unfold refFrac; rw [col_of_vec]; rfl

end RefTerm

end Cert.Level

end
-- ==== Proof.LibConcat6.lean ====
/-
  Six blocks of eight columns side by side. The concatenation along the columns of six `[M, 8]` arrays, read at
  column `8 l + c`, is the `l`-th array at column `c`.
-/
import Idealize.ShloMosaic.Lib.Pipeline.Value
import Idealize.ShloMosaic.Lib.ValueIdx

noncomputable section

namespace Cert.Concat6

open Idealize.ShloMosaic Idealize.ShloMosaic.ValueIdx

variable {α : Type} {M : Nat}

/-- The pieces' list. -/
abbrev pieces (v0 v1 v2 v3 v4 v5 : (⟨2, ![M, 8]⟩ : Shape).Idx → α) : List ((s : Shape) × (s.Idx → α)) :=
  [⟨⟨2, ![M, 8]⟩, v0⟩, ⟨⟨2, ![M, 8]⟩, v1⟩, ⟨⟨2, ![M, 8]⟩, v2⟩, ⟨⟨2, ![M, 8]⟩, v3⟩, ⟨⟨2, ![M, 8]⟩, v4⟩, ⟨⟨2, ![M, 8]⟩, v5⟩]

/-- Column `8 l + c` of the joined array, for `l < 6`. -/
def col (l : Fin 6) (c : Fin 8) : Fin 48 := ⟨8 * l.val + c.val, by have := l.isLt; have := c.isLt; omega⟩

/-- Every column of the joined array is some `8 l + c`. -/
theorem exists_col (j : Fin 48) : ∃ (l : Fin 6) (c : Fin 8), j = col l c :=
  ⟨⟨j.val / 8, by have := j.isLt; omega⟩, ⟨j.val % 8, Nat.mod_lt _ (by decide)⟩, Fin.ext (by show j.val = 8 * (j.val / 8) + j.val % 8; omega)⟩

/-- THE JOINED ARRAY READ AT `(r, 8 l + c)`. -/
theorem concat6_apply (v0 v1 v2 v3 v4 v5 : (⟨2, ![M, 8]⟩ : Shape).Idx → α)
    (h : Shape.Concatenates ((pieces v0 v1 v2 v3 v4 v5).map (·.1)) ⟨2, ![M, 48]⟩ 1) (r : Fin M) (l : Fin 6) (c : Fin 8) :
    concatenate ⟨2, ![M, 48]⟩ 1 (pieces v0 v1 v2 v3 v4 v5) h (ix2 r (col l c))
      = (![v0, v1, v2, v3, v4, v5] : Fin 6 → _) l (ix2 r c) := by
  have key : ∀ (k : Nat) (hk : k < 6) (x : (⟨2, ![M, 8]⟩ : Shape).Idx → α),
      (pieces v0 v1 v2 v3 v4 v5)[k]'(by simpa using hk) = ⟨⟨2, ![M, 8]⟩, x⟩ →
      (((((pieces v0 v1 v2 v3 v4 v5).take k).map (·.1)).map fun s : Shape =>
        if h : s.rank = (⟨2, ![M, 48]⟩ : Shape).rank then s.size ((1 : Fin 2).cast h.symm) else 0).sum = 8 * k) →
      concatenate ⟨2, ![M, 48]⟩ 1 (pieces v0 v1 v2 v3 v4 v5) h (ix2 r ⟨8 * k + c.val, by have := c.isLt; omega⟩) = x (ix2 r c) := by
    intro k hk x hx hpre
    refine concatenate_apply_piece 1 (pieces v0 v1 v2 v3 v4 v5) h _ k (by simpa using hk) ⟨2, ![M, 8]⟩ x hx rfl (8 * k) hpre
      (ix2 r c) (fun b hb => ?_) rfl
    match b with
    | ⟨0, _⟩ => rfl
    | ⟨1, _⟩ => exact absurd rfl hb
  match l with
  | ⟨0, _⟩ => exact key 0 (by decide) v0 rfl rfl
  | ⟨1, _⟩ => exact key 1 (by decide) v1 rfl rfl
  | ⟨2, _⟩ => exact key 2 (by decide) v2 rfl rfl
  | ⟨3, _⟩ => exact key 3 (by decide) v3 rfl rfl
  | ⟨4, _⟩ => exact key 4 (by decide) v4 rfl rfl
  | ⟨5, _⟩ => exact key 5 (by decide) v5 rfl rfl

end Cert.Concat6

end
-- ==== Proof.KLevels.lean ====
/-
  The kernel's block, entry by entry. Each of the six products of the body is an instance of the generic level
  (the weight matrix of the block's clipped coordinates times the level's table), and the block is the six
  products side by side: entry `(r, 8 l + c)` is level `l`'s interpolated entry `c` of row `r`'s coordinate.
-/
import proofs.«128251_j30185030156575_1_alg».proof.Proof.Gen.KernelIdeal.Skeleton
import proofs.«128251_j30185030156575_1_alg».proof.Proof.Pieces
import proofs.«128251_j30185030156575_1_alg».proof.Proof.Interp
import proofs.«128251_j30185030156575_1_alg».proof.Proof.LibLevel
import proofs.«128251_j30185030156575_1_alg».proof.Proof.LibConcat6
import Idealize.ShloMosaic.Lib.Pipeline.Value
import Idealize.ShloMosaic.Lib.ValueIdx

noncomputable section

namespace Cert.KernelIdeal.Levels

open Idealize.ShloMosaic Idealize.ShloMosaic.ValueIdx Cert.Interp
open Cert.KernelIdeal Cert.KernelIdeal.Gen

/-- The block's clipped coordinates: entry `r` of the vector is the clip of the block's entry `(r, 0)`. -/
theorem tc_apply (x0 : Vec Ideal S20000x1 .f32) (r : Fin 20000) :
    k0_pay2 x0 (ix1 r) = clip01 (x0 (ix2 r (0 : Fin 1))) := by
  have e : shapeCast S20000 x0 Facts₀.shapeCasts_S20000x1_S20000 (ix1 r) = x0 (ix2 r (0 : Fin 1)) :=
    shapeCast_apply x0 Facts₀.shapeCasts_S20000x1_S20000 (ix1 r) (ix2 r (0 : Fin 1))
      (by rw [Shape.rowMajor_val_two, Shape.rowMajor_val_one]; show r.val * 1 + 0 = r.val; omega)
  exact congrArg (fun z : EReal => FloatOps.minimumf (F := Ideal) (φ := .f32) (FloatOps.ofBits .f32 0x3F800000#32)
    (FloatOps.maximumf (FloatOps.ofBits .f32 0x00000000#32) z)) e

/-- Level 0: the table of 8 rows. -/
theorem level0 (x0 : Vec Ideal S20000x1 .f32) (T : Vec Ideal S8x8 .f32) (r : Fin 20000) (c : Fin 8) :
    k0_pay4 (k0_pay3 x0) T (ix2 r c) = lerp 8 (by decide) 0x40E00000#32 6#32 T (k0_pay2 x0 (ix1 r)) c :=
  Cert.Level.level_matmul (M := 20000) (S := 8) (by decide) (by decide) 0x40E00000#32 6#32 (by decide)
    Facts₀.iota_S20000x8_d1_w32 Facts₀.shapeCasts_S20000_S20000x1 Facts₀.shapeCasts_S20000x1_S20000x1 Facts₀.broadcasts_S20000x1_S20000x8
    Facts₀.shapeCasts_S20000x8_S20000x8 (k0_pay2 x0) T r c

/-- Level 1: 16 rows. -/
theorem level1 (tc : FVec Ideal S20000 .f32) (T : Vec Ideal S16x8 .f32) (r : Fin 20000) (c : Fin 8) :
    k0_pay6 (k0_pay5 tc) T (ix2 r c) = lerp 16 (by decide) 0x41700000#32 14#32 T (tc (ix1 r)) c :=
  Cert.Level.level_matmul (M := 20000) (S := 16) (by decide) (by decide) 0x41700000#32 14#32 (by decide)
    Facts₀.iota_S20000x16_d1_w32 Facts₀.shapeCasts_S20000_S20000x1 Facts₀.shapeCasts_S20000x1_S20000x1 Facts₀.broadcasts_S20000x1_S20000x16
    Facts₀.shapeCasts_S20000x16_S20000x16 tc T r c

/-- Level 2: 32 rows. -/
theorem level2 (tc : FVec Ideal S20000 .f32) (T : Vec Ideal S32x8 .f32) (r : Fin 20000) (c : Fin 8) :
    k0_pay10 (k0_pay9 (k0_pay7 tc) (k0_pay8 tc)) T (ix2 r c) = lerp 32 (by decide) 0x41F80000#32 30#32 T (tc (ix1 r)) c :=
  Cert.Level.level_matmul (M := 20000) (S := 32) (by decide) (by decide) 0x41F80000#32 30#32 (by decide)
    Facts₀.iota_S20000x32_d1_w32 Facts₀.shapeCasts_S20000_S20000x1 Facts₀.shapeCasts_S20000x1_S20000x1 Facts₀.broadcasts_S20000x1_S20000x32
    Facts₀.shapeCasts_S20000x32_S20000x32 tc T r c

/-- Level 3: 64 rows. -/
theorem level3 (tc : FVec Ideal S20000 .f32) (T : Vec Ideal S64x8 .f32) (r : Fin 20000) (c : Fin 8) :
    k0_pay19 (k0_pay18 (iota .tc S20000x64 32 [1] Facts₀.iota_S20000x64_d1_w32) (k0_pay14 tc) (k0_pay15 tc) (k0_pay16 tc) (k0_pay17 tc)) T (ix2 r c)
      = lerp 64 (by decide) 0x427C0000#32 62#32 T (tc (ix1 r)) c :=
  Cert.Level.level_matmul (M := 20000) (S := 64) (by decide) (by decide) 0x427C0000#32 62#32 (by decide)
    Facts₀.iota_S20000x64_d1_w32 Facts₀.shapeCasts_S20000_S20000x1 Facts₀.shapeCasts_S20000x1_S20000x1 Facts₀.broadcasts_S20000x1_S20000x64
    Facts₀.shapeCasts_S20000x64_S20000x64 tc T r c

/-- Level 4: 128 rows. -/
theorem level4 (tc : FVec Ideal S20000 .f32) (T : Vec Ideal S128x8 .f32) (r : Fin 20000) (c : Fin 8) :
    k0_pay28 (k0_pay27 (k0_pay24 tc) (k0_pay25 tc) (k0_pay26 tc)) T (ix2 r c)
      = lerp 128 (by decide) 0x42FE0000#32 126#32 T (tc (ix1 r)) c :=
  Cert.Level.level_matmul (M := 20000) (S := 128) (by decide) (by decide) 0x42FE0000#32 126#32 (by decide)
    Facts₀.iota_S20000x128_d1_w32 Facts₀.shapeCasts_S20000_S20000x1 Facts₀.shapeCasts_S20000x1_S20000x1 Facts₀.broadcasts_S20000x1_S20000x128
    Facts₀.shapeCasts_S20000x128_S20000x128 tc T r c

/-- Level 5: 256 rows (its product is the last step before the six are joined). -/
theorem level5 (tc : FVec Ideal S20000 .f32) (T : Vec Ideal S256x8 .f32) (r : Fin 20000) (c : Fin 8) :
    matmul (φ₁ := .f32) (φ₂ := .f32) dot_S20000x256_S256x8_S20000x8_1_0_0_1_n_n none (k0_pay29 tc) T (constant S20000x8 .f32 0x00000000#32) (ix2 r c)
      = lerp 256 (by decide) 0x437F0000#32 254#32 T (tc (ix1 r)) c :=
  Cert.Level.level_matmul (M := 20000) (S := 256) (by decide) (by decide) 0x437F0000#32 254#32 (by decide)
    Facts₀.iota_S20000x256_d1_w32 Facts₀.shapeCasts_S20000_S20000x1 Facts₀.shapeCasts_S20000x1_S20000x1 Facts₀.broadcasts_S20000x1_S20000x256
    Facts₀.shapeCasts_S20000x256_S20000x256 tc T r c

/-- THE BLOCK, entry `(r, 8 l + c)`: level `l`'s interpolated entry of the clip of the block's coordinate `r`. -/
theorem body_apply (x0 : Vec Ideal S20000x1 .f32) (x1 : Vec Ideal S8x8 .f32) (x2 : Vec Ideal S16x8 .f32)
    (x3 : Vec Ideal S32x8 .f32) (x4 : Vec Ideal S64x8 .f32) (x5 : Vec Ideal S128x8 .f32) (x6 : Vec Ideal S256x8 .f32)
    (r : Fin 20000) (l : Fin 6) (c : Fin 8) :
    Cert.KernelIdeal.Pieces.body x0 x1 x2 x3 x4 x5 x6 (ix2 r (Cert.Concat6.col l c))
      = (![lerp 8 (by decide) 0x40E00000#32 6#32 x1, lerp 16 (by decide) 0x41700000#32 14#32 x2,
           lerp 32 (by decide) 0x41F80000#32 30#32 x3, lerp 64 (by decide) 0x427C0000#32 62#32 x4,
           lerp 128 (by decide) 0x42FE0000#32 126#32 x5, lerp 256 (by decide) 0x437F0000#32 254#32 x6] : Fin 6 → EReal → Fin 8 → EReal)
          l (clip01 (x0 (ix2 r (0 : Fin 1)))) c := by
  unfold Cert.KernelIdeal.Pieces.body k0_pay1
  rw [← tc_apply]
  refine (Cert.Concat6.concat6_apply (M := 20000) _ _ _ _ _ _ _ r l c).trans ?_
  match l with
  | ⟨0, _⟩ => exact level0 x0 x1 r c
  | ⟨1, _⟩ => exact level1 (k0_pay2 x0) x2 r c
  | ⟨2, _⟩ => exact level2 (k0_pay2 x0) x3 r c
  | ⟨3, _⟩ => exact level3 (k0_pay2 x0) x4 r c
  | ⟨4, _⟩ => exact level4 (k0_pay2 x0) x5 r c
  | ⟨5, _⟩ => exact level5 (k0_pay2 x0) x6 r c

end Cert.KernelIdeal.Levels

end
-- ==== Proof.Spec.lean ====
/-
  The whole result as one function of the arguments: entry `(n, 8 l + c)` of the `[2000000, 48]` array is level
  `l`'s interpolated entry `c` at the clip of coordinate `n`, the six levels being the tables of 8, 16, 32, 64, 128
  and 256 rows with scales 7, 15, 31, 63, 127, 255 and cell bounds 6, 14, 30, 62, 126, 254.
-/
import Idealize.ShloMosaic.Lib.ValueIdx
import proofs.«128251_j30185030156575_1_alg».proof.Proof.Interp
import proofs.«128251_j30185030156575_1_alg».proof.Proof.LibConcat6

noncomputable section

namespace Cert.Spec

open Idealize.ShloMosaic Idealize.ShloMosaic.ValueIdx Cert.Interp

/-- The six levels, each a function of the clipped coordinate and the column. -/
def levels (x1 : (⟨2, ![8, 8]⟩ : Shape).Idx → EReal) (x2 : (⟨2, ![16, 8]⟩ : Shape).Idx → EReal)
    (x3 : (⟨2, ![32, 8]⟩ : Shape).Idx → EReal) (x4 : (⟨2, ![64, 8]⟩ : Shape).Idx → EReal)
    (x5 : (⟨2, ![128, 8]⟩ : Shape).Idx → EReal) (x6 : (⟨2, ![256, 8]⟩ : Shape).Idx → EReal) : Fin 6 → EReal → Fin 8 → EReal :=
  ![lerp 8 (by decide) 0x40E00000#32 6#32 x1, lerp 16 (by decide) 0x41700000#32 14#32 x2,
    lerp 32 (by decide) 0x41F80000#32 30#32 x3, lerp 64 (by decide) 0x427C0000#32 62#32 x4,
    lerp 128 (by decide) 0x42FE0000#32 126#32 x5, lerp 256 (by decide) 0x437F0000#32 254#32 x6]

/-- The result array. -/
def G (x0 : (⟨2, ![2000000, 1]⟩ : Shape).Idx → EReal)
    (x1 : (⟨2, ![8, 8]⟩ : Shape).Idx → EReal) (x2 : (⟨2, ![16, 8]⟩ : Shape).Idx → EReal)
    (x3 : (⟨2, ![32, 8]⟩ : Shape).Idx → EReal) (x4 : (⟨2, ![64, 8]⟩ : Shape).Idx → EReal)
    (x5 : (⟨2, ![128, 8]⟩ : Shape).Idx → EReal) (x6 : (⟨2, ![256, 8]⟩ : Shape).Idx → EReal) :
    (⟨2, ![2000000, 48]⟩ : Shape).Idx → EReal := fun j =>
  levels x1 x2 x3 x4 x5 x6 ⟨(j 1).val / 8, by have := idx2_lt1 j; omega⟩ (clip01 (x0 (ix2 (j 0) (0 : Fin 1))))
    ⟨(j 1).val % 8, Nat.mod_lt _ (by decide)⟩

/-- Read at row `n`, column `8 l + c`. -/
theorem G_apply (x0 : (⟨2, ![2000000, 1]⟩ : Shape).Idx → EReal)
    (x1 : (⟨2, ![8, 8]⟩ : Shape).Idx → EReal) (x2 : (⟨2, ![16, 8]⟩ : Shape).Idx → EReal)
    (x3 : (⟨2, ![32, 8]⟩ : Shape).Idx → EReal) (x4 : (⟨2, ![64, 8]⟩ : Shape).Idx → EReal)
    (x5 : (⟨2, ![128, 8]⟩ : Shape).Idx → EReal) (x6 : (⟨2, ![256, 8]⟩ : Shape).Idx → EReal)
    (n : Fin 2000000) (l : Fin 6) (c : Fin 8) :
    G x0 x1 x2 x3 x4 x5 x6 (ix2 n (Cert.Concat6.col l c)) = levels x1 x2 x3 x4 x5 x6 l (clip01 (x0 (ix2 n (0 : Fin 1)))) c := by
  unfold G
  have hl : (⟨(ix2 n (Cert.Concat6.col l c) 1).val / 8, by have := idx2_lt1 (ix2 n (Cert.Concat6.col l c)); omega⟩ : Fin 6) = l :=
    Fin.ext (by show (8 * l.val + c.val) / 8 = l.val; have := c.isLt; omega)
  have hc : (⟨(ix2 n (Cert.Concat6.col l c) 1).val % 8, Nat.mod_lt _ (by decide)⟩ : Fin 8) = c :=
    Fin.ext (by show (8 * l.val + c.val) % 8 = c.val; have := c.isLt; omega)
  rw [hl, hc]

end Cert.Spec

end
-- ==== Proof.Blocks.lean ====
/-
  From blocks to the array. Grid point `t` reads rows `20000 t … 20000 t + 19999` of the coordinates and the six
  tables whole, and writes back rows `20000 t …` of the result; what it writes is the specification's array read
  through that block, and the hundred blocks cover the array (row `i` lies in block `i / 20000`).
-/
import proofs.«128251_j30185030156575_1_alg».proof.Proof.Gen.KernelIdeal.Value
import proofs.«128251_j30185030156575_1_alg».proof.Proof.Pieces
import proofs.«128251_j30185030156575_1_alg».proof.Proof.KLevels
import proofs.«128251_j30185030156575_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Idealize.ShloMosaic.ValueIdx
open Cert.KernelIdeal Cert.KernelIdeal.Gen Cert.KernelIdeal.Value Cert.Interp Cert.Spec

variable (m : (ℓ : Loc nD τ sig) → Buf (Elt Ideal) ℓ) (ρ : Dev nD → PrngReg)

/-- The argument arrays as the region finds them, by their literal types. -/
abbrev a0 (c : Dev nD) : Vec Ideal S2000000x1 .f32 := V m c main_arg0
abbrev a1 (c : Dev nD) : Vec Ideal S8x8 .f32 := V m c main_arg1
abbrev a2 (c : Dev nD) : Vec Ideal S16x8 .f32 := V m c main_arg2
abbrev a3 (c : Dev nD) : Vec Ideal S32x8 .f32 := V m c main_arg3
abbrev a4 (c : Dev nD) : Vec Ideal S64x8 .f32 := V m c main_arg4
abbrev a5 (c : Dev nD) : Vec Ideal S128x8 .f32 := V m c main_arg5
abbrev a6 (c : Dev nD) : Vec Ideal S256x8 .f32 := V m c main_arg6

/-- The input blocks at point `t`, by their literal types. -/
abbrev b0 (c : Dev nD) (t : Fin cfg0.N) : Vec Ideal S20000x1 .f32 := iblk m c 0 t
abbrev b1 (c : Dev nD) (t : Fin cfg0.N) : Vec Ideal S8x8 .f32 := iblk m c 1 t
abbrev b2 (c : Dev nD) (t : Fin cfg0.N) : Vec Ideal S16x8 .f32 := iblk m c 2 t
abbrev b3 (c : Dev nD) (t : Fin cfg0.N) : Vec Ideal S32x8 .f32 := iblk m c 3 t
abbrev b4 (c : Dev nD) (t : Fin cfg0.N) : Vec Ideal S64x8 .f32 := iblk m c 4 t
abbrev b5 (c : Dev nD) (t : Fin cfg0.N) : Vec Ideal S128x8 .f32 := iblk m c 5 t
abbrev b6 (c : Dev nD) (t : Fin cfg0.N) : Vec Ideal S256x8 .f32 := iblk m c 6 t

/-- The specification's array of the arguments. -/
abbrev Gm (c : Dev nD) : Vec Ideal S2000000x48 .f32 :=
  G (a0 m c) (a1 m c) (a2 m c) (a3 m c) (a4 m c) (a5 m c) (a6 m c)

/-- The printed index maps over the grid: the coordinates' and the result's block number is the point, the tables'
    is zero. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 100 := by
  have h := t.isLt
  have hN : cfg0.N = 100 := N_0
  omega

/-- Row `r` of point `t`'s coordinate block is coordinate `20000 t + r`. -/
theorem b0_apply (c : Dev nD) (t : Fin cfg0.N) (r : Fin 20000) :
    b0 m c t (ix2 r (0 : Fin 1)) = a0 m c (ix2 ⟨20000 * t.val + r.val, by have := t_lt t; have := r.isLt; omega⟩ (0 : Fin 1)) := by
  obtain ⟨e0, e1, -⟩ := idx_facts t
  show a0 m c (((cfg0.win 0).blk t).view.emb (ix2 r (0 : Fin 1))) = _
  congr 1
  funext a; apply Fin.ext
  match a with
  | ⟨0, _⟩ => show win0_0.index t (0 : Fin 2) * 20000 + 1 * r.val = 20000 * t.val + r.val; rw [e0]; omega
  | ⟨1, _⟩ => show win0_0.index t (1 : Fin 2) * 1 + 1 * 0 = 0; rw [e1]

/-- Each table's block is the table. -/
theorem b1_eq (c : Dev nD) (t : Fin cfg0.N) : b1 m c t = a1 m c := by
  obtain ⟨-, -, -, -, e0, e1, -⟩ := idx_facts t
  funext y
  show a1 m c (((cfg0.win 1).blk t).view.emb y) = a1 m c y
  congr 1; funext a; apply Fin.ext
  match a with
  | ⟨0, _⟩ => show win0_1.index t (0 : Fin 2) * 8 + 1 * (y 0).val = (y 0).val; rw [e0]; omega
  | ⟨1, _⟩ => show win0_1.index t (1 : Fin 2) * 8 + 1 * (y 1).val = (y 1).val; rw [e1]; omega
theorem b2_eq (c : Dev nD) (t : Fin cfg0.N) : b2 m c t = a2 m c := by
  obtain ⟨-, -, -, -, -, -, e0, e1, -⟩ := idx_facts t
  funext y
  show a2 m c (((cfg0.win 2).blk t).view.emb y) = a2 m c y
  congr 1; funext a; apply Fin.ext
  match a with
  | ⟨0, _⟩ => show win0_2.index t (0 : Fin 2) * 16 + 1 * (y 0).val = (y 0).val; rw [e0]; omega
  | ⟨1, _⟩ => show win0_2.index t (1 : Fin 2) * 8 + 1 * (y 1).val = (y 1).val; rw [e1]; omega
theorem b3_eq (c : Dev nD) (t : Fin cfg0.N) : b3 m c t = a3 m c := by
  obtain ⟨-, -, -, -, -, -, -, -, e0, e1, -⟩ := idx_facts t
  funext y
  show a3 m c (((cfg0.win 3).blk t).view.emb y) = a3 m c y
  congr 1; funext a; apply Fin.ext
  match a with
  | ⟨0, _⟩ => show win0_3.index t (0 : Fin 2) * 32 + 1 * (y 0).val = (y 0).val; rw [e0]; omega
  | ⟨1, _⟩ => show win0_3.index t (1 : Fin 2) * 8 + 1 * (y 1).val = (y 1).val; rw [e1]; omega
theorem b4_eq (c : Dev nD) (t : Fin cfg0.N) : b4 m c t = a4 m c := by
  obtain ⟨-, -, -, -, -, -, -, -, -, -, e0, e1, -⟩ := idx_facts t
  funext y
  show a4 m c (((cfg0.win 4).blk t).view.emb y) = a4 m c y
  congr 1; funext a; apply Fin.ext
  match a with
  | ⟨0, _⟩ => show win0_4.index t (0 : Fin 2) * 64 + 1 * (y 0).val = (y 0).val; rw [e0]; omega
  | ⟨1, _⟩ => show win0_4.index t (1 : Fin 2) * 8 + 1 * (y 1).val = (y 1).val; rw [e1]; omega
theorem b5_eq (c : Dev nD) (t : Fin cfg0.N) : b5 m c t = a5 m c := by
  obtain ⟨-, -, -, -, -, -, -, -, -, -, -, -, e0, e1, -⟩ := idx_facts t
  funext y
  show a5 m c (((cfg0.win 5).blk t).view.emb y) = a5 m c y
  congr 1; funext a; apply Fin.ext
  match a with
  | ⟨0, _⟩ => show win0_5.index t (0 : Fin 2) * 128 + 1 * (y 0).val = (y 0).val; rw [e0]; omega
  | ⟨1, _⟩ => show win0_5.index t (1 : Fin 2) * 8 + 1 * (y 1).val = (y 1).val; rw [e1]; omega
theorem b6_eq (c : Dev nD) (t : Fin cfg0.N) : b6 m c t = a6 m c := by
  obtain ⟨-, -, -, -, -, -, -, -, -, -, -, -, -, -, e0, e1⟩ := idx_facts t
  funext y
  show a6 m c (((cfg0.win 6).blk t).view.emb y) = a6 m c y
  congr 1; funext a; apply Fin.ext
  match a with
  | ⟨0, _⟩ => show win0_6.index t (0 : Fin 2) * 256 + 1 * (y 0).val = (y 0).val; rw [e0]; omega
  | ⟨1, _⟩ => show win0_6.index t (1 : Fin 2) * 8 + 1 * (y 1).val = (y 1).val; rw [e1]; omega

/-- Entry `(r, j)` of what point `t`'s body leaves is the specification's array at `(20000 t + r, j)`. -/
theorem block_entry (c : Dev nD) (t : Fin cfg0.N) (r : Fin 20000) (j : Fin 48) :
    Cert.KernelIdeal.Pieces.body (b0 m c t) (b1 m c t) (b2 m c t) (b3 m c t) (b4 m c t) (b5 m c t) (b6 m c t) (ix2 r j)
      = Gm m c (ix2 ⟨20000 * t.val + r.val, by have := t_lt t; have := r.isLt; omega⟩ j) := by
  obtain ⟨l, q, rfl⟩ := Cert.Concat6.exists_col j
  rw [Cert.KernelIdeal.Levels.body_apply, b0_apply, b1_eq, b2_eq, b3_eq, b4_eq, b5_eq, b6_eq]
  exact (G_apply (a0 m c) (a1 m c) (a2 m c) (a3 m c) (a4 m c) (a5 m c) (a6 m c) _ l q).symm

/-- The body's block at point `t`, read at any of its indices, is the specification's array at the index the block's
    window sends it to. -/
theorem block_read (c : Dev nD) (t : Fin cfg0.N) (y : S20000x48.Idx) :
    Cert.KernelIdeal.Pieces.body (b0 m c t) (b1 m c t) (b2 m c t) (b3 m c t) (b4 m c t) (b5 m c t) (b6 m c t) y
      = Gm m c (((cfg0.win 7).blk t).view.emb y) := by
  obtain ⟨-, -, e0, e1, -⟩ := idx_facts t
  obtain ⟨r, j, rfl⟩ : ∃ (r : Fin 20000) (j : Fin 48), y = ix2 r j := ⟨y 0, y 1, eq_ix2 y⟩
  rw [block_entry]
  congr 1
  funext a; apply Fin.ext
  match a with
  | ⟨0, _⟩ => show 20000 * t.val + r.val = win0_7.index t (0 : Fin 2) * 20000 + 1 * r.val; rw [e0]; omega
  | ⟨1, _⟩ => show j.val = win0_7.index t (1 : Fin 2) * 48 + 1 * j.val; rw [e1]; omega

/-- WHAT POINT `t` WRITES BACK is block `t` of the specification's array. -/
theorem flushed_eq (c : Dev nD) (t : Fin cfg0.N) :
    (dats m 0 c).flushed 7 t = ((cfg0.win 7).blk t).view.read (Elt Ideal) (Gm m c) := by
  rw [Value.flushed7_A, Cert.KernelIdeal.Pieces.out_eq_body]
  funext y
  exact block_read m c t y

/-- An index of the array is in point `t`'s block iff each coordinate is in the block's range on its axis. -/
theorem mem_blk (t : Fin cfg0.N) (i : S2000000x48.Idx) :
    i ∈ ((cfg0.win 7).blk t).view.set ↔ ∀ a : Fin 2, win0_7.index t a * S20000x48.size a ≤ (i a).val
      ∧ (i a).val < win0_7.index t a * S20000x48.size a + S20000x48.size a := by
  show i ∈ ((View.whole main_v0).slice (win0_7.rect t)).set ↔ _
  rw [View.set_slice_whole, Rect.mem_set_unit]
  exact Iff.rfl

/-- THE ARRAY after the run is the specification's array of the arguments. -/
theorem final (c : Dev nD) : (dats m 0 c).arrAt 7 cfg0.N = Gm m c :=
  (dats m 0 c).arrAt_eq_of_cover 7 (Gm m c) (fun t _ => flushed_eq m c t) fun i => by
    have h0 : (i 0).val < 2000000 := idx2_lt0 i
    have h1 : (i 1).val < 48 := idx2_lt1 i
    let t : Fin cfg0.N := ⟨(i 0).val / 20000, by have hN : cfg0.N = 100 := N_0; omega⟩
    obtain ⟨-, -, e0, e1, -⟩ := idx_facts t
    refine ⟨t, flush0_7 t, ?_⟩
    rw [mem_blk]
    intro a
    match a with
    | ⟨0, _⟩ =>
      show win0_7.index t (0 : Fin 2) * 20000 ≤ (i 0).val ∧ (i 0).val < win0_7.index t (0 : Fin 2) * 20000 + 20000
      rw [e0]; show (i 0).val / 20000 * 20000 ≤ (i 0).val ∧ (i 0).val < (i 0).val / 20000 * 20000 + 20000; omega
    | ⟨1, _⟩ =>
      show win0_7.index t (1 : Fin 2) * 48 ≤ (i 1).val ∧ (i 1).val < win0_7.index t (1 : Fin 2) * 48 + 48
      rw [e1]; omega

/-- The kernel's run, read: the result array is the specification's array, the arguments are unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RLevels.lean ====
/-
  The reference's result, entry by entry. Each level of the host program is an instance of the generic level
  (gather the cell's row and the next from the level's table, mix with `1 - w` and `w`), and the result is the
  six levels side by side: entry `(n, 8 l + c)` is level `l`'s interpolated entry `c` of row `n`'s coordinate.
-/
import proofs.«128251_j30185030156575_1_alg».proof.Proof.Gen.ReferenceIdeal.Read
import proofs.«128251_j30185030156575_1_alg».proof.Proof.Interp
import proofs.«128251_j30185030156575_1_alg».proof.Proof.LibLevel
import proofs.«128251_j30185030156575_1_alg».proof.Proof.LibConcat6
import proofs.«128251_j30185030156575_1_alg».proof.Proof.Spec
import Idealize.ShloMosaic.Lib.Pipeline.Value
import Idealize.ShloMosaic.Lib.ValueIdx

noncomputable section

namespace Cert.ReferenceIdeal.Levels

open Idealize.ShloMosaic Idealize.ShloMosaic.ValueIdx Cert.Interp
open Cert.ReferenceIdeal Cert.ReferenceIdeal.Gen Cert.ReferenceIdeal.Read

/-- The clipped coordinates: entry `n` of the vector is the clip of the argument's entry `(n, 0)`. -/
theorem tc_apply (x0 : (⟨S2000000x1, .f32⟩ : BufTy).Contents (Elt Ideal)) (n : Fin 2000000) :
    val_main_v1 (F := Ideal) x0 (ix1 n) = clip01 (x0 (ix2 n (0 : Fin 1))) := by
  have e : shapeCast S2000000 x0 Facts₀.shapeCasts_S2000000x1_S2000000 (ix1 n) = x0 (ix2 n (0 : Fin 1)) :=
    shapeCast_apply x0 Facts₀.shapeCasts_S2000000x1_S2000000 (ix1 n) (ix2 n (0 : Fin 1))
      (by rw [Shape.rowMajor_val_two, Shape.rowMajor_val_one]; show n.val * 1 + 0 = n.val; omega)
  exact congrArg (fun z : EReal => FloatOps.minimumf (F := Ideal) (φ := .f32) (FloatOps.ofBits .f32 0x3F800000#32)
    (FloatOps.maximumf (FloatOps.ofBits .f32 0x00000000#32) z)) e

/-- Level 0: the table of 8 rows. -/
theorem level0 (x0 : (⟨S2000000x1, .f32⟩ : BufTy).Contents (Elt Ideal)) (T : (⟨S8x8, .f32⟩ : BufTy).Contents (Elt Ideal))
    (n : Fin 2000000) (c : Fin 8) :
    val_main_v32 (F := Ideal) x0 T (ix2 n c) = lerp 8 (by decide) 0x40E00000#32 6#32 T (val_main_v1 (F := Ideal) x0 (ix1 n)) c :=
  Cert.Level.refLevel_apply (M := 2000000) (S := 8) 0x40E00000#32 6#32 8#32
    Facts₀.gather_S8x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- Level 1: the table of 16 rows. -/
theorem level1 (x0 : (⟨S2000000x1, .f32⟩ : BufTy).Contents (Elt Ideal)) (T : (⟨S16x8, .f32⟩ : BufTy).Contents (Elt Ideal))
    (n : Fin 2000000) (c : Fin 8) :
    val_main_v63 (F := Ideal) x0 T (ix2 n c) = lerp 16 (by decide) 0x41700000#32 14#32 T (val_main_v1 (F := Ideal) x0 (ix1 n)) c :=
  Cert.Level.refLevel_apply (M := 2000000) (S := 16) 0x41700000#32 14#32 16#32
    Facts₀.gather_S16x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- Level 2: the table of 32 rows. -/
theorem level2 (x0 : (⟨S2000000x1, .f32⟩ : BufTy).Contents (Elt Ideal)) (T : (⟨S32x8, .f32⟩ : BufTy).Contents (Elt Ideal))
    (n : Fin 2000000) (c : Fin 8) :
    val_main_v94 (F := Ideal) x0 T (ix2 n c) = lerp 32 (by decide) 0x41F80000#32 30#32 T (val_main_v1 (F := Ideal) x0 (ix1 n)) c :=
  Cert.Level.refLevel_apply (M := 2000000) (S := 32) 0x41F80000#32 30#32 32#32
    Facts₀.gather_S32x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- Level 3: the table of 64 rows. -/
theorem level3 (x0 : (⟨S2000000x1, .f32⟩ : BufTy).Contents (Elt Ideal)) (T : (⟨S64x8, .f32⟩ : BufTy).Contents (Elt Ideal))
    (n : Fin 2000000) (c : Fin 8) :
    val_main_v125 (F := Ideal) x0 T (ix2 n c) = lerp 64 (by decide) 0x427C0000#32 62#32 T (val_main_v1 (F := Ideal) x0 (ix1 n)) c :=
  Cert.Level.refLevel_apply (M := 2000000) (S := 64) 0x427C0000#32 62#32 64#32
    Facts₀.gather_S64x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- Level 4: the table of 128 rows. -/
theorem level4 (x0 : (⟨S2000000x1, .f32⟩ : BufTy).Contents (Elt Ideal)) (T : (⟨S128x8, .f32⟩ : BufTy).Contents (Elt Ideal))
    (n : Fin 2000000) (c : Fin 8) :
    val_main_v156 (F := Ideal) x0 T (ix2 n c) = lerp 128 (by decide) 0x42FE0000#32 126#32 T (val_main_v1 (F := Ideal) x0 (ix1 n)) c :=
  Cert.Level.refLevel_apply (M := 2000000) (S := 128) 0x42FE0000#32 126#32 128#32
    Facts₀.gather_S128x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- Level 5: the table of 256 rows. -/
theorem level5 (x0 : (⟨S2000000x1, .f32⟩ : BufTy).Contents (Elt Ideal)) (T : (⟨S256x8, .f32⟩ : BufTy).Contents (Elt Ideal))
    (n : Fin 2000000) (c : Fin 8) :
    val_main_v187 (F := Ideal) x0 T (ix2 n c) = lerp 256 (by decide) 0x437F0000#32 254#32 T (val_main_v1 (F := Ideal) x0 (ix1 n)) c :=
  Cert.Level.refLevel_apply (M := 2000000) (S := 256) 0x437F0000#32 254#32 256#32
    Facts₀.gather_S256x8_S2000000x1_S2000000x8_1_0_n_n_0_1_18_wf Facts₀.bcast_S_S2000000 Facts₀.bcast_S2000000_S2000000x1_0
    Facts₀.bcast_S2000000x1_S2000000x8_0_1 Facts₀.bcast_S_S2000000x1 (by decide) (by decide) (by decide) (val_main_v1 (F := Ideal) x0) T n c

/-- THE RESULT, entry `(n, 8 l + c)`: level `l`'s interpolated entry of the clip of coordinate `n`. -/
theorem result_apply (x0 : (⟨S2000000x1, .f32⟩ : BufTy).Contents (Elt Ideal)) (x1 : (⟨S8x8, .f32⟩ : BufTy).Contents (Elt Ideal))
    (x2 : (⟨S16x8, .f32⟩ : BufTy).Contents (Elt Ideal)) (x3 : (⟨S32x8, .f32⟩ : BufTy).Contents (Elt Ideal))
    (x4 : (⟨S64x8, .f32⟩ : BufTy).Contents (Elt Ideal)) (x5 : (⟨S128x8, .f32⟩ : BufTy).Contents (Elt Ideal))
    (x6 : (⟨S256x8, .f32⟩ : BufTy).Contents (Elt Ideal)) (n : Fin 2000000) (l : Fin 6) (c : Fin 8) :
    val_main_v188 (F := Ideal) x0 x1 x2 x3 x4 x5 x6 (ix2 n (Cert.Concat6.col l c))
      = (![lerp 8 (by decide) 0x40E00000#32 6#32 x1, lerp 16 (by decide) 0x41700000#32 14#32 x2,
           lerp 32 (by decide) 0x41F80000#32 30#32 x3, lerp 64 (by decide) 0x427C0000#32 62#32 x4,
           lerp 128 (by decide) 0x42FE0000#32 126#32 x5, lerp 256 (by decide) 0x437F0000#32 254#32 x6] : Fin 6 → EReal → Fin 8 → EReal)
          l (clip01 (x0 (ix2 n (0 : Fin 1)))) c := by
  unfold val_main_v188
  rw [← tc_apply]
  refine (Cert.Concat6.concat6_apply (M := 2000000) _ _ _ _ _ _ _ n l c).trans ?_
  match l with
  | ⟨0, _⟩ => exact level0 x0 x1 n c
  | ⟨1, _⟩ => exact level1 x0 x2 n c
  | ⟨2, _⟩ => exact level2 x0 x3 n c
  | ⟨3, _⟩ => exact level3 x0 x4 n c
  | ⟨4, _⟩ => exact level4 x0 x5 n c
  | ⟨5, _⟩ => exact level5 x0 x6 n c

/-- THE REFERENCE'S RESULT is the specification's array of the arguments. -/
theorem result_eq (x0 : (⟨S2000000x1, .f32⟩ : BufTy).Contents (Elt Ideal)) (x1 : (⟨S8x8, .f32⟩ : BufTy).Contents (Elt Ideal))
    (x2 : (⟨S16x8, .f32⟩ : BufTy).Contents (Elt Ideal)) (x3 : (⟨S32x8, .f32⟩ : BufTy).Contents (Elt Ideal))
    (x4 : (⟨S64x8, .f32⟩ : BufTy).Contents (Elt Ideal)) (x5 : (⟨S128x8, .f32⟩ : BufTy).Contents (Elt Ideal))
    (x6 : (⟨S256x8, .f32⟩ : BufTy).Contents (Elt Ideal)) :
    val_main_v188 (F := Ideal) x0 x1 x2 x3 x4 x5 x6 = Cert.Spec.G x0 x1 x2 x3 x4 x5 x6 := by
  funext j
  obtain ⟨n, jj, rfl⟩ : ∃ (n : Fin 2000000) (jj : Fin 48), j = ix2 n jj := ⟨j 0, j 1, eq_ix2 j⟩
  obtain ⟨l, c, rfl⟩ := Cert.Concat6.exists_col jj
  rw [result_apply, Cert.Spec.G_apply]
  rfl

end Cert.ReferenceIdeal.Levels

end
-- ==== Proof.lean ====
/-
  Multi-resolution linear interpolation of six small tables along one clipped coordinate, a kernel against its
  plain reference, over the extended reals.

  The kernel, per block of 20000 coordinates, builds for each table of S rows the two-hot weight matrix
  `W[r, k] = (k = i0[r]) ? 1 - w[r] : (k = i0[r] + 1) ? w[r] : 0` and multiplies it by the table; the reference
  gathers rows `i0` and `i0 + 1` and mixes them. Both compute `i0 = min (S - 2) (max 0 ⌊t (S - 1)⌋)` and
  `w = t (S - 1) - i0` from the same clipped coordinate `t` by the same operations, so the only law needed is that
  the row of weights contracted with a column is its two non-zero terms (every other term is `0 * x = 0` on the
  extended reals, so the inputs' finiteness is not used) and that products commute. The cell number lies in
  `[0, S - 2]` by the integer clamp, whatever the conversion of the floor to a word gives; so both rows are in the
  table, the wrap of a negative index and the gather's clamp do nothing, and the successor does not overflow.

  Modules: LibTwoHot (the two-hot sum, the clamp's bounds), LibRowGather (a row gather read at an index),
  LibWeights (a plain matrix product at an index; the weight matrix entry by entry), Interp (the specification of
  one level), LibLevel (one level on either side is the specification), LibConcat6 (six blocks of columns joined),
  Spec (the result array), Pieces (what a grid point leaves in its output block), KLevels and RLevels (the two
  programs' six levels), Blocks (from the hundred blocks to the array). The frames are the generated ones; the
  reference's frame is its generated run with the result dropped.
-/
import proofs.«128251_j30185030156575_1_alg».proof.Defs
import proofs.«128251_j30185030156575_1_alg».proof.Proof.Gen.Kernel
import proofs.«128251_j30185030156575_1_alg».proof.Proof.Gen.Kernel.Skeleton
import proofs.«128251_j30185030156575_1_alg».proof.Proof.Gen.Kernel.Launch
import proofs.«128251_j30185030156575_1_alg».proof.Proof.Gen.Kernel.Points
import proofs.«128251_j30185030156575_1_alg».proof.Proof.Gen.Kernel.Frame
import proofs.«128251_j30185030156575_1_alg».proof.Proof.Gen.KernelIdeal
import proofs.«128251_j30185030156575_1_alg».proof.Proof.Gen.KernelIdeal.Skeleton
import proofs.«128251_j30185030156575_1_alg».proof.Proof.Gen.KernelIdeal.Launch
import proofs.«128251_j30185030156575_1_alg».proof.Proof.Gen.KernelIdeal.Points
import proofs.«128251_j30185030156575_1_alg».proof.Proof.Gen.KernelIdeal.Frame
import proofs.«128251_j30185030156575_1_alg».proof.Proof.Gen.ReferenceIdeal
import proofs.«128251_j30185030156575_1_alg».proof.Proof.Gen.Pre_finite_inputs
import proofs.«128251_j30185030156575_1_alg».proof.Proof.Gen.KernelIdeal.Value
import proofs.«128251_j30185030156575_1_alg».proof.Proof.Gen.ReferenceIdeal.Run
import proofs.«128251_j30185030156575_1_alg».proof.Proof.Gen.ReferenceIdeal.Read
import proofs.«128251_j30185030156575_1_alg».proof.Proof.Blocks
import proofs.«128251_j30185030156575_1_alg».proof.Proof.RLevels
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's array of arguments that agree. -/
theorem algebraic : Cert.algebraic_KernelIdeal_ReferenceIdeal := by
  intro m ρ m' ρ' _ hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v188_eq, Cert.ReferenceIdeal.Levels.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
